-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S1x1024x3 : Shape := ⟨3, ![1, 1024, 3]⟩
abbrev S1x1x1024 : Shape := ⟨3, ![1, 1, 1024]⟩
abbrev S1x1x4096 : Shape := ⟨3, ![1, 1, 4096]⟩
abbrev S1024x3 : Shape := ⟨2, ![1024, 3]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S8x4096 : Shape := ⟨2, ![8, 4096]⟩
abbrev S_ : Shape := ⟨0, ![]⟩

abbrev nBuf : Space → Nat
  | .hbm => 17
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v62 : BitVec 32 := Scalar.muli arg2 c1024_i32
  v62
def k0_off1 (i : grid0.Coords) : Fin 3 → Nat :=
  let c0_20 : Index := 0#32
  let c0_21 : Index := 0#32
  let arg2 : BitVec 32 := BitVec.ofNat 32 (i 2).val
  let c1024_i32 : BitVec 32 := 1024#32
  let v62 : BitVec 32 := Scalar.muli arg2 c1024_i32
  let v63 : BitVec 32 := v62
  let v64 : Index := Scalar.indexCast v63
  ![0, 0, v64.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1x1024_S1x1x1024_0_0_0 : ∀ a, (![0, 0, 0] : Fin 3 → Nat) a + S1x1x1024.size a ≤ S1x1x1024.size a
  h_S1x1x1024 : 0 < S1x1x1024.numel
  inb_S1x1x4096_S1x1x4096_0_0_0 : ∀ a, (![0, 0, 0] : Fin 3 → Nat) a + S1x1x4096.size a ≤ S1x1x4096.size a
  h_S1x1x4096 : 0 < S1x1x4096.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  slices_S1024x3_o0_0_S1024x1 : S1024x3.Slices ![0, 0] S1024x1
  shapeCasts_S1024x1_S1024 : S1024x1.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S1024x3_o0_2_S1024x1 : S1024x3.Slices ![0, 2] S1024x1
  reduces_S1024x1024_S1024 : S1024x1024.Reduces [1] S1024
  shapeCasts_S1x1x1024_S1x1x1024 : S1x1x1024.ShapeCasts S1x1x1024
  shapeCasts_S1024_S1x1x1024 : S1024.ShapeCasts S1x1x1024
  reduces_S1024x1024_S1024_2 : S1024x1024.Reduces [0] S1024
  shapeCasts_S8x1x4096_S8x4096 : S8x1x4096.ShapeCasts S8x4096
  reducesTo_S8x4096_S_d0_1 : S8x4096.ReducesTo [0, 1] S_
  h_S_ : 0 < S_.numel
  hrank0 : 0 < grid0.rank
  k0_mult1_dvd : ∀ i : grid0.Coords, 128 ∣ (k0_mult1 i).toNat
  k0_off1_inb : ∀ i : grid0.Coords, ∀ a, (k0_off1 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x4096x3.size a
  hwx0_1 : ∀ i : grid0.Coords, EltTy.bits .f32 = 32 ∨ (Rect.block (s := S8x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.TileRunsBits.lean ====
/-
  One tile of the chamfer sweep: the kernel body at a grid point. It reads a block of 1024 points of each cloud, forms
  their 1024 × 1024 squared distances, and folds the tile's row minima into the row block and its column minima into
  the slice of the column block that the column tile selects; where a sweep starts it first resets a block to +∞.
  Three cases of the two resets meet the grid; each is run once, symbolically, on any staging memrefs.
-/
import proofs.«132328_j377957122587_1_alg».proof.Proof.Gen.Kernel.Frame
import proofs.«132328_j377957122587_1_alg».proof.Proof.Gen.Kernel.Skeleton

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two resets' conditions, over the grid

The grid is 8 × 4 × 4 (batch, row tile, column tile), walked with the column tile fastest: point `t` is batch `t / 16`,
row tile `t / 4 % 4`, column tile `t % 4`. -/

/-- The row block is reset where a sweep over the column tiles starts: the column tile is 0. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The column block is reset where a batch starts: row tile and column tile both 0. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond1 : ∀ t : Fin cfg0.N, cond1 (grid0.coords t) ↔ t.val % 16 = 0 :=
  (by decide +kernel : ∀ t : Fin grid0.N, cond1 (grid0.coords t) ↔ t.val % 16 = 0)

/-! ## The body, case by case

On whole staging memrefs — the two point blocks at their contents `x0`, `x1`; a result block the case resets at anything,
one it carries at its running contents `xo2` (row) or `xo3` (column) — the body runs to the end and hands back the point
blocks as they were and the two result blocks with a list of pieces written (the last store first). The row block's
last store covers it, and so does the column block's reset, so what those were written over does not matter; a carried
column block is written over exactly `xo3`. -/

set_option maxHeartbeats 1000000 in
/-- Where a batch starts: both blocks are reset to +∞, then the tile is folded in. -/
noncomputable def runA (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (hc0 : cond0 i) (hc1 : cond1 i)
    (x0 : Vec F S1x1024x3 .f32) (x1 : Vec F S1x1024x3 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

set_option maxHeartbeats 1000000 in
/-- Inside a sweep over the column tiles: no reset; the tile is folded into both blocks as handed over. -/
noncomputable def runB (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (hc0 : ¬cond0 i) (hc1 : ¬cond1 i)
    (x0 : Vec F S1x1024x3 .f32) (x1 : Vec F S1x1024x3 .f32) (xo2 : Vec F S1x1x1024 .f32) (xo3 : Vec F S1x1x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

set_option maxHeartbeats 1000000 in
/-- Where a later row tile starts: the row block is reset to +∞, the column block is carried; then the tile is folded in. -/
noncomputable def runC (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (hc0 : cond0 i) (hc1 : ¬cond1 i)
    (x0 : Vec F S1x1024x3 .f32) (x1 : Vec F S1x1024x3 .f32) (xo3 : Vec F S1x1x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.Kernel.Tile

end
-- ==== Proof.TileFrameBits.lean ====
/-
  The sweep of tiles as a whole: what the row block and the column block hold after every grid point (by recursion on the
  point, over the three cases of the body), the proof that the body at every point does what that recursion says, and from
  it the program's run — every execution terminates, the argument arrays end unchanged, and the two result arrays end at
  what the write-backs of those blocks make of them.
-/
import proofs.«132328_j377957122587_1_alg».proof.Proof.TileRunsBits

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

/-- One staging buffer of each result window, through which covered contents are stated (the choice does not matter). -/
abbrev VO2 : View sig .tc .vmem S1x1x1024 .f32 := (Memref.whole cc0_stg2_0 : Memref sig .tc .vmem S1x1x1024 .f32).view
abbrev VO3 : View sig .tc .vmem S1x1x4096 .f32 := (Memref.whole cc0_stg3_0 : Memref sig .tc .vmem S1x1x4096 .f32).view
/-- Each window's current staging memref at point `t`, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-! ## What a tile leaves in the two result blocks -/

/-- Where a batch starts (`t ≡ 0 mod 16`): the row block and the column block, each its pieces read back. -/
def rowA (c : Dev nD) (t : Fin cfg0.N) (h0 : t.val % 4 = 0) (h1 : t.val % 16 = 0) : Vec F S1x1x1024 .f32 :=
  VO2.read (Elt F) (VO2.writes (Elt F) VO2.junk (runA c (grid0.coords t) (ms0 t) (hs0 t) (ms1 t) (hs1 t) (ms2 t) (hs2 t) (ms3 t) (hs3 t) ((hcond0 t).mpr h0) ((hcond1 t).mpr h1) (iblk m c 0 t) (iblk m c 1 t)).1)
def colA (c : Dev nD) (t : Fin cfg0.N) (h0 : t.val % 4 = 0) (h1 : t.val % 16 = 0) : Vec F S1x1x4096 .f32 :=
  VO3.read (Elt F) (VO3.writes (Elt F) VO3.junk (runA c (grid0.coords t) (ms0 t) (hs0 t) (ms1 t) (hs1 t) (ms2 t) (hs2 t) (ms3 t) (hs3 t) ((hcond0 t).mpr h0) ((hcond1 t).mpr h1) (iblk m c 0 t) (iblk m c 1 t)).2.1)

/-- Where a later row tile starts (`t ≡ 0 mod 4`, not mod 16): the row block its pieces read back, the column block its
    pieces written over what the point before left, `xo3`. -/
def rowC (c : Dev nD) (t : Fin cfg0.N) (h0 : t.val % 4 = 0) (h1 : ¬t.val % 16 = 0) (xo3 : Vec F S1x1x4096 .f32) : Vec F S1x1x1024 .f32 :=
  VO2.read (Elt F) (VO2.writes (Elt F) VO2.junk (runC c (grid0.coords t) (ms0 t) (hs0 t) (ms1 t) (hs1 t) (ms2 t) (hs2 t) (ms3 t) (hs3 t) ((hcond0 t).mpr h0) (fun h => h1 ((hcond1 t).mp h)) (iblk m c 0 t) (iblk m c 1 t) xo3).1)
def colC (c : Dev nD) (t : Fin cfg0.N) (h0 : t.val % 4 = 0) (h1 : ¬t.val % 16 = 0) (xo3 : Vec F S1x1x4096 .f32) : Vec F S1x1x4096 .f32 :=
  (ms3 t).view.read (Elt F) ((ms3 t).view.writes (Elt F) ((hs3 t).unread xo3) (runC c (grid0.coords t) (ms0 t) (hs0 t) (ms1 t) (hs1 t) (ms2 t) (hs2 t) (ms3 t) (hs3 t) ((hcond0 t).mpr h0) (fun h => h1 ((hcond1 t).mp h)) (iblk m c 0 t) (iblk m c 1 t) xo3).2.1)

/-- Inside a sweep (`t ≢ 0 mod 4`): both blocks over what the point before left, `xo2` and `xo3`. -/
def rowB (c : Dev nD) (t : Fin cfg0.N) (h0 : ¬t.val % 4 = 0) (h1 : ¬t.val % 16 = 0) (xo2 : Vec F S1x1x1024 .f32) (xo3 : Vec F S1x1x4096 .f32) : Vec F S1x1x1024 .f32 :=
  VO2.read (Elt F) (VO2.writes (Elt F) VO2.junk (runB c (grid0.coords t) (ms0 t) (hs0 t) (ms1 t) (hs1 t) (ms2 t) (hs2 t) (ms3 t) (hs3 t) (fun h => h0 ((hcond0 t).mp h)) (fun h => h1 ((hcond1 t).mp h)) (iblk m c 0 t) (iblk m c 1 t) xo2 xo3).1)
def colB (c : Dev nD) (t : Fin cfg0.N) (h0 : ¬t.val % 4 = 0) (h1 : ¬t.val % 16 = 0) (xo2 : Vec F S1x1x1024 .f32) (xo3 : Vec F S1x1x4096 .f32) : Vec F S1x1x4096 .f32 :=
  (ms3 t).view.read (Elt F) ((ms3 t).view.writes (Elt F) ((hs3 t).unread xo3) (runB c (grid0.coords t) (ms0 t) (hs0 t) (ms1 t) (hs1 t) (ms2 t) (hs2 t) (ms3 t) (hs3 t) (fun h => h0 ((hcond0 t).mp h)) (fun h => h1 ((hcond1 t).mp h)) (iblk m c 0 t) (iblk m c 1 t) xo2 xo3).2.1)

/-! ## The covers: the row block's pieces, and the reset column block's, cover the block -/

theorem coverA2 (c : Dev nD) (t : Fin cfg0.N) (h0 : t.val % 4 = 0) (h1 : t.val % 16 = 0) (y : S1x1x1024.Idx) :
    ∃ pc ∈ (runA c (grid0.coords t) (ms0 t) (hs0 t) (ms1 t) (hs1 t) (ms2 t) (hs2 t) (ms3 t) (hs3 t) ((hcond0 t).mpr h0) ((hcond1 t).mpr h1) (iblk m c 0 t) (iblk m c 1 t)).1, y ∈ pc.1.set :=
  View.cover_of_tiledL _ S1x1x1024.size (by sl_kernel_rfl) y
theorem coverA3 (c : Dev nD) (t : Fin cfg0.N) (h0 : t.val % 4 = 0) (h1 : t.val % 16 = 0) (y : S1x1x4096.Idx) :
    ∃ pc ∈ (runA c (grid0.coords t) (ms0 t) (hs0 t) (ms1 t) (hs1 t) (ms2 t) (hs2 t) (ms3 t) (hs3 t) ((hcond0 t).mpr h0) ((hcond1 t).mpr h1) (iblk m c 0 t) (iblk m c 1 t)).2.1, y ∈ pc.1.set :=
  View.cover_of_tiledL _ S1x1x4096.size (by sl_kernel_rfl) y
theorem coverC2 (c : Dev nD) (t : Fin cfg0.N) (h0 : t.val % 4 = 0) (h1 : ¬t.val % 16 = 0) (xo3 : Vec F S1x1x4096 .f32) (y : S1x1x1024.Idx) :
    ∃ pc ∈ (runC c (grid0.coords t) (ms0 t) (hs0 t) (ms1 t) (hs1 t) (ms2 t) (hs2 t) (ms3 t) (hs3 t) ((hcond0 t).mpr h0) (fun h => h1 ((hcond1 t).mp h)) (iblk m c 0 t) (iblk m c 1 t) xo3).1, y ∈ pc.1.set :=
  View.cover_of_tiledL _ S1x1x1024.size (by sl_kernel_rfl) y
theorem coverB2 (c : Dev nD) (t : Fin cfg0.N) (h0 : ¬t.val % 4 = 0) (h1 : ¬t.val % 16 = 0) (xo2 : Vec F S1x1x1024 .f32) (xo3 : Vec F S1x1x4096 .f32) (y : S1x1x1024.Idx) :
    ∃ pc ∈ (runB c (grid0.coords t) (ms0 t) (hs0 t) (ms1 t) (hs1 t) (ms2 t) (hs2 t) (ms3 t) (hs3 t) (fun h => h0 ((hcond0 t).mp h)) (fun h => h1 ((hcond1 t).mp h)) (iblk m c 0 t) (iblk m c 1 t) xo2 xo3).1, y ∈ pc.1.set :=
  View.cover_of_tiledL _ S1x1x1024.size (by sl_kernel_rfl) y

/-! ## The two blocks after each point -/

/-- THE SWEEP. What the row block and the column block hold after the body at position `n`: the case the position
    selects, a carried block taken at what this leaves at `n - 1`. -/
def outsAt (c : Dev nD) : (n : ℕ) → n < cfg0.N → Vec F S1x1x1024 .f32 × Vec F S1x1x4096 .f32
  | 0, hn => (rowA m c ⟨0, hn⟩ (Nat.zero_mod _) (Nat.zero_mod _), colA m c ⟨0, hn⟩ (Nat.zero_mod _) (Nat.zero_mod _))
  | n + 1, hn =>
    if h0 : (n + 1) % 4 = 0 then
      if h1 : (n + 1) % 16 = 0 then (rowA m c ⟨n + 1, hn⟩ h0 h1, colA m c ⟨n + 1, hn⟩ h0 h1)
      else (rowC m c ⟨n + 1, hn⟩ h0 h1 (outsAt c n (Nat.lt_of_succ_lt hn)).2, colC m c ⟨n + 1, hn⟩ h0 h1 (outsAt c n (Nat.lt_of_succ_lt hn)).2)
    else
      (rowB m c ⟨n + 1, hn⟩ h0 (show ¬(n + 1) % 16 = 0 from fun h => h0 (by omega)) (outsAt c n (Nat.lt_of_succ_lt hn)).1 (outsAt c n (Nat.lt_of_succ_lt hn)).2,
       colB m c ⟨n + 1, hn⟩ h0 (show ¬(n + 1) % 16 = 0 from fun h => h0 (by omega)) (outsAt c n (Nat.lt_of_succ_lt hn)).1 (outsAt c n (Nat.lt_of_succ_lt hn)).2)

theorem outsAt_A (c : Dev nD) (t : Fin cfg0.N) (h0 : t.val % 4 = 0) (h1 : t.val % 16 = 0) :
    outsAt m c t.val t.isLt = (rowA m c t h0 h1, colA m c t h0 h1) := by
  obtain ⟨n, hn⟩ := t
  cases n with
  | zero => exact rfl
  | succ n => exact (dif_pos h0).trans ((dif_pos h1).trans rfl)

theorem outsAt_C (c : Dev nD) (t : Fin cfg0.N) (h0 : t.val % 4 = 0) (h1 : ¬t.val % 16 = 0) :
    outsAt m c t.val t.isLt
      = (rowC m c t h0 h1 (outsAt m c (t.val - 1) (Nat.lt_of_le_of_lt (Nat.sub_le _ _) t.isLt)).2,
         colC m c t h0 h1 (outsAt m c (t.val - 1) (Nat.lt_of_le_of_lt (Nat.sub_le _ _) t.isLt)).2) := by
  obtain ⟨n, hn⟩ := t
  cases n with
  | zero => exact absurd (Nat.zero_mod _) h1
  | succ n => exact (dif_pos h0).trans ((dif_neg h1).trans rfl)

theorem outsAt_B (c : Dev nD) (t : Fin cfg0.N) (h0 : ¬t.val % 4 = 0) (h1 : ¬t.val % 16 = 0) :
    outsAt m c t.val t.isLt
      = (rowB m c t h0 h1 (outsAt m c (t.val - 1) (Nat.lt_of_le_of_lt (Nat.sub_le _ _) t.isLt)).1 (outsAt m c (t.val - 1) (Nat.lt_of_le_of_lt (Nat.sub_le _ _) t.isLt)).2,
         colB m c t h0 h1 (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The pipeline's proof data -/

/-- The arrays as the region finds them; after the body at point `t` each point block as fetched and the two result
    blocks at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each point block's staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Inside a sweep the row block's staging buffer holds what the point before left: the row block is written back only
    after a column tile 3. -/
theorem before2_B (c : Dev nD) (t : Fin cfg0.N) (h0 : ¬t.val % 4 = 0) (d) :
    (dats m 0 c).before 2 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Off a batch's start the column block's staging buffer holds what the point before left: the column block is written
    back only after a batch's last point. -/
theorem before3_BC (c : Dev nD) (t : Fin cfg0.N) (h1 : ¬t.val % 16 = 0) (d) :
    (dats m 0 c).before 3 t d = (outsAt m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the point blocks' memrefs hold their blocks; the position says which case applies; a carried
    block holds what the point before left; so that case's run applies, and what it leaves is `outsAt` there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 128 := lt_of_lt_of_eq t.isLt (show cfg0.N = 128 from N_0)
  by_cases h0 : t.val % 4 = 0
  · by_cases h1 : t.val % 16 = 0
    · rw [outsAt_A m c t h0 h1]
      dsimp only
      unfold rowA colA
      iintro ⟨HΦ, Ho, ⟨%d0, H0⟩, ⟨%d1, H1⟩, ⟨%d2, H2⟩, ⟨%d3, H3⟩⟩
      iapply ((runA c (grid0.coords t) _ _ _ _ _ _ _ _ ((hcond0 t).mpr h0) ((hcond1 t).mpr h1) (iblk m c 0 t) (iblk m c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA2 m c t h0 h1)
      unfold owns; iexists _; isplitr
      swap; · iexact H3
      ipureintro; exact View.read_writes_of_cover _ _ _ _ _ (coverA3 m c t h0 h1)
    · rw [outsAt_C m c t h0 h1]
      dsimp only
      simp only [before3_BC m c t h1]
      unfold rowC colC
      iintro ⟨HΦ, Ho, ⟨%d0, H0⟩, ⟨%d1, H1⟩, ⟨%d2, H2⟩, ⟨%d3, H3⟩⟩
      iapply ((runC c (grid0.coords t) _ _ _ _ _ _ _ _ ((hcond0 t).mpr h0) (fun h => h1 ((hcond1 t).mp h)) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC2 m c t h0 h1 _)
      unfold owns; iexists _; isplitr
      swap; · iexact H3
      ipureintro; rfl
  · have h1 : ¬t.val % 16 = 0 := fun h => h0 (by omega)
    rw [outsAt_B m c t h0 h1]
    dsimp only
    simp only [before2_B m c t h0, before3_BC m c t h1]
    unfold rowB colB
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (fun h => h1 ((hcond1 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB2 m c t h0 h1 _ _)
    unfold owns; iexists _; isplitr
    swap; · iexact H3
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer at what the host operations after the region
    make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Tile

end
-- ==== Proof.TileRuns.lean ====
/-
  One tile of the chamfer sweep: the kernel body at a grid point. It reads a block of 1024 points of each cloud, forms
  their 1024 × 1024 squared distances, and folds the tile's row minima into the row block and its column minima into
  the slice of the column block that the column tile selects; where a sweep starts it first resets a block to +∞.
  Three cases of the two resets meet the grid; each is run once, symbolically, on any staging memrefs.
-/
import proofs.«132328_j377957122587_1_alg».proof.Proof.Gen.KernelIdeal.Frame
import proofs.«132328_j377957122587_1_alg».proof.Proof.Gen.KernelIdeal.Skeleton

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two resets' conditions, over the grid

The grid is 8 × 4 × 4 (batch, row tile, column tile), walked with the column tile fastest: point `t` is batch `t / 16`,
row tile `t / 4 % 4`, column tile `t % 4`. -/

/-- The row block is reset where a sweep over the column tiles starts: the column tile is 0. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The column block is reset where a batch starts: row tile and column tile both 0. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond1 : ∀ t : Fin cfg0.N, cond1 (grid0.coords t) ↔ t.val % 16 = 0 :=
  (by decide +kernel : ∀ t : Fin grid0.N, cond1 (grid0.coords t) ↔ t.val % 16 = 0)

/-! ## The body, case by case

On whole staging memrefs — the two point blocks at their contents `x0`, `x1`; a result block the case resets at anything,
one it carries at its running contents `xo2` (row) or `xo3` (column) — the body runs to the end and hands back the point
blocks as they were and the two result blocks with a list of pieces written (the last store first). The row block's
last store covers it, and so does the column block's reset, so what those were written over does not matter; a carried
column block is written over exactly `xo3`. -/

set_option maxHeartbeats 1000000 in
/-- Where a batch starts: both blocks are reset to +∞, then the tile is folded in. -/
noncomputable def runA (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (hc0 : cond0 i) (hc1 : cond1 i)
    (x0 : Vec F S1x1024x3 .f32) (x1 : Vec F S1x1024x3 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

set_option maxHeartbeats 1000000 in
/-- Inside a sweep over the column tiles: no reset; the tile is folded into both blocks as handed over. -/
noncomputable def runB (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (hc0 : ¬cond0 i) (hc1 : ¬cond1 i)
    (x0 : Vec F S1x1024x3 .f32) (x1 : Vec F S1x1024x3 .f32) (xo2 : Vec F S1x1x1024 .f32) (xo3 : Vec F S1x1x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

set_option maxHeartbeats 1000000 in
/-- Where a later row tile starts: the row block is reset to +∞, the column block is carried; then the tile is folded in. -/
noncomputable def runC (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (hc0 : cond0 i) (hc1 : ¬cond1 i)
    (x0 : Vec F S1x1024x3 .f32) (x1 : Vec F S1x1024x3 .f32) (xo3 : Vec F S1x1x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.KernelIdeal.Tile

end
-- ==== Proof.TileFrame.lean ====
/-
  The sweep of tiles as a whole: what the row block and the column block hold after every grid point (by recursion on the
  point, over the three cases of the body), the proof that the body at every point does what that recursion says, and from
  it the program's run — every execution terminates, the argument arrays end unchanged, and the two result arrays end at
  what the write-backs of those blocks make of them.
-/
import proofs.«132328_j377957122587_1_alg».proof.Proof.TileRuns

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

/-- One staging buffer of each result window, through which covered contents are stated (the choice does not matter). -/
abbrev VO2 : View sig .tc .vmem S1x1x1024 .f32 := (Memref.whole cc0_stg2_0 : Memref sig .tc .vmem S1x1x1024 .f32).view
abbrev VO3 : View sig .tc .vmem S1x1x4096 .f32 := (Memref.whole cc0_stg3_0 : Memref sig .tc .vmem S1x1x4096 .f32).view
/-- Each window's current staging memref at point `t`, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-! ## What a tile leaves in the two result blocks -/

/-- Where a batch starts (`t ≡ 0 mod 16`): the row block and the column block, each its pieces read back. -/
def rowA (c : Dev nD) (t : Fin cfg0.N) (h0 : t.val % 4 = 0) (h1 : t.val % 16 = 0) : Vec F S1x1x1024 .f32 :=
  VO2.read (Elt F) (VO2.writes (Elt F) VO2.junk (runA c (grid0.coords t) (ms0 t) (hs0 t) (ms1 t) (hs1 t) (ms2 t) (hs2 t) (ms3 t) (hs3 t) ((hcond0 t).mpr h0) ((hcond1 t).mpr h1) (iblk m c 0 t) (iblk m c 1 t)).1)
def colA (c : Dev nD) (t : Fin cfg0.N) (h0 : t.val % 4 = 0) (h1 : t.val % 16 = 0) : Vec F S1x1x4096 .f32 :=
  VO3.read (Elt F) (VO3.writes (Elt F) VO3.junk (runA c (grid0.coords t) (ms0 t) (hs0 t) (ms1 t) (hs1 t) (ms2 t) (hs2 t) (ms3 t) (hs3 t) ((hcond0 t).mpr h0) ((hcond1 t).mpr h1) (iblk m c 0 t) (iblk m c 1 t)).2.1)

/-- Where a later row tile starts (`t ≡ 0 mod 4`, not mod 16): the row block its pieces read back, the column block its
    pieces written over what the point before left, `xo3`. -/
def rowC (c : Dev nD) (t : Fin cfg0.N) (h0 : t.val % 4 = 0) (h1 : ¬t.val % 16 = 0) (xo3 : Vec F S1x1x4096 .f32) : Vec F S1x1x1024 .f32 :=
  VO2.read (Elt F) (VO2.writes (Elt F) VO2.junk (runC c (grid0.coords t) (ms0 t) (hs0 t) (ms1 t) (hs1 t) (ms2 t) (hs2 t) (ms3 t) (hs3 t) ((hcond0 t).mpr h0) (fun h => h1 ((hcond1 t).mp h)) (iblk m c 0 t) (iblk m c 1 t) xo3).1)
def colC (c : Dev nD) (t : Fin cfg0.N) (h0 : t.val % 4 = 0) (h1 : ¬t.val % 16 = 0) (xo3 : Vec F S1x1x4096 .f32) : Vec F S1x1x4096 .f32 :=
  (ms3 t).view.read (Elt F) ((ms3 t).view.writes (Elt F) ((hs3 t).unread xo3) (runC c (grid0.coords t) (ms0 t) (hs0 t) (ms1 t) (hs1 t) (ms2 t) (hs2 t) (ms3 t) (hs3 t) ((hcond0 t).mpr h0) (fun h => h1 ((hcond1 t).mp h)) (iblk m c 0 t) (iblk m c 1 t) xo3).2.1)

/-- Inside a sweep (`t ≢ 0 mod 4`): both blocks over what the point before left, `xo2` and `xo3`. -/
def rowB (c : Dev nD) (t : Fin cfg0.N) (h0 : ¬t.val % 4 = 0) (h1 : ¬t.val % 16 = 0) (xo2 : Vec F S1x1x1024 .f32) (xo3 : Vec F S1x1x4096 .f32) : Vec F S1x1x1024 .f32 :=
  VO2.read (Elt F) (VO2.writes (Elt F) VO2.junk (runB c (grid0.coords t) (ms0 t) (hs0 t) (ms1 t) (hs1 t) (ms2 t) (hs2 t) (ms3 t) (hs3 t) (fun h => h0 ((hcond0 t).mp h)) (fun h => h1 ((hcond1 t).mp h)) (iblk m c 0 t) (iblk m c 1 t) xo2 xo3).1)
def colB (c : Dev nD) (t : Fin cfg0.N) (h0 : ¬t.val % 4 = 0) (h1 : ¬t.val % 16 = 0) (xo2 : Vec F S1x1x1024 .f32) (xo3 : Vec F S1x1x4096 .f32) : Vec F S1x1x4096 .f32 :=
  (ms3 t).view.read (Elt F) ((ms3 t).view.writes (Elt F) ((hs3 t).unread xo3) (runB c (grid0.coords t) (ms0 t) (hs0 t) (ms1 t) (hs1 t) (ms2 t) (hs2 t) (ms3 t) (hs3 t) (fun h => h0 ((hcond0 t).mp h)) (fun h => h1 ((hcond1 t).mp h)) (iblk m c 0 t) (iblk m c 1 t) xo2 xo3).2.1)

/-! ## The covers: the row block's pieces, and the reset column block's, cover the block -/

theorem coverA2 (c : Dev nD) (t : Fin cfg0.N) (h0 : t.val % 4 = 0) (h1 : t.val % 16 = 0) (y : S1x1x1024.Idx) :
    ∃ pc ∈ (runA c (grid0.coords t) (ms0 t) (hs0 t) (ms1 t) (hs1 t) (ms2 t) (hs2 t) (ms3 t) (hs3 t) ((hcond0 t).mpr h0) ((hcond1 t).mpr h1) (iblk m c 0 t) (iblk m c 1 t)).1, y ∈ pc.1.set :=
  View.cover_of_tiledL _ S1x1x1024.size (by sl_kernel_rfl) y
theorem coverA3 (c : Dev nD) (t : Fin cfg0.N) (h0 : t.val % 4 = 0) (h1 : t.val % 16 = 0) (y : S1x1x4096.Idx) :
    ∃ pc ∈ (runA c (grid0.coords t) (ms0 t) (hs0 t) (ms1 t) (hs1 t) (ms2 t) (hs2 t) (ms3 t) (hs3 t) ((hcond0 t).mpr h0) ((hcond1 t).mpr h1) (iblk m c 0 t) (iblk m c 1 t)).2.1, y ∈ pc.1.set :=
  View.cover_of_tiledL _ S1x1x4096.size (by sl_kernel_rfl) y
theorem coverC2 (c : Dev nD) (t : Fin cfg0.N) (h0 : t.val % 4 = 0) (h1 : ¬t.val % 16 = 0) (xo3 : Vec F S1x1x4096 .f32) (y : S1x1x1024.Idx) :
    ∃ pc ∈ (runC c (grid0.coords t) (ms0 t) (hs0 t) (ms1 t) (hs1 t) (ms2 t) (hs2 t) (ms3 t) (hs3 t) ((hcond0 t).mpr h0) (fun h => h1 ((hcond1 t).mp h)) (iblk m c 0 t) (iblk m c 1 t) xo3).1, y ∈ pc.1.set :=
  View.cover_of_tiledL _ S1x1x1024.size (by sl_kernel_rfl) y
theorem coverB2 (c : Dev nD) (t : Fin cfg0.N) (h0 : ¬t.val % 4 = 0) (h1 : ¬t.val % 16 = 0) (xo2 : Vec F S1x1x1024 .f32) (xo3 : Vec F S1x1x4096 .f32) (y : S1x1x1024.Idx) :
    ∃ pc ∈ (runB c (grid0.coords t) (ms0 t) (hs0 t) (ms1 t) (hs1 t) (ms2 t) (hs2 t) (ms3 t) (hs3 t) (fun h => h0 ((hcond0 t).mp h)) (fun h => h1 ((hcond1 t).mp h)) (iblk m c 0 t) (iblk m c 1 t) xo2 xo3).1, y ∈ pc.1.set :=
  View.cover_of_tiledL _ S1x1x1024.size (by sl_kernel_rfl) y

/-! ## The two blocks after each point -/

/-- THE SWEEP. What the row block and the column block hold after the body at position `n`: the case the position
    selects, a carried block taken at what this leaves at `n - 1`. -/
def outsAt (c : Dev nD) : (n : ℕ) → n < cfg0.N → Vec F S1x1x1024 .f32 × Vec F S1x1x4096 .f32
  | 0, hn => (rowA m c ⟨0, hn⟩ (Nat.zero_mod _) (Nat.zero_mod _), colA m c ⟨0, hn⟩ (Nat.zero_mod _) (Nat.zero_mod _))
  | n + 1, hn =>
    if h0 : (n + 1) % 4 = 0 then
      if h1 : (n + 1) % 16 = 0 then (rowA m c ⟨n + 1, hn⟩ h0 h1, colA m c ⟨n + 1, hn⟩ h0 h1)
      else (rowC m c ⟨n + 1, hn⟩ h0 h1 (outsAt c n (Nat.lt_of_succ_lt hn)).2, colC m c ⟨n + 1, hn⟩ h0 h1 (outsAt c n (Nat.lt_of_succ_lt hn)).2)
    else
      (rowB m c ⟨n + 1, hn⟩ h0 (show ¬(n + 1) % 16 = 0 from fun h => h0 (by omega)) (outsAt c n (Nat.lt_of_succ_lt hn)).1 (outsAt c n (Nat.lt_of_succ_lt hn)).2,
       colB m c ⟨n + 1, hn⟩ h0 (show ¬(n + 1) % 16 = 0 from fun h => h0 (by omega)) (outsAt c n (Nat.lt_of_succ_lt hn)).1 (outsAt c n (Nat.lt_of_succ_lt hn)).2)

theorem outsAt_A (c : Dev nD) (t : Fin cfg0.N) (h0 : t.val % 4 = 0) (h1 : t.val % 16 = 0) :
    outsAt m c t.val t.isLt = (rowA m c t h0 h1, colA m c t h0 h1) := by
  obtain ⟨n, hn⟩ := t
  cases n with
  | zero => exact rfl
  | succ n => exact (dif_pos h0).trans ((dif_pos h1).trans rfl)

theorem outsAt_C (c : Dev nD) (t : Fin cfg0.N) (h0 : t.val % 4 = 0) (h1 : ¬t.val % 16 = 0) :
    outsAt m c t.val t.isLt
      = (rowC m c t h0 h1 (outsAt m c (t.val - 1) (Nat.lt_of_le_of_lt (Nat.sub_le _ _) t.isLt)).2,
         colC m c t h0 h1 (outsAt m c (t.val - 1) (Nat.lt_of_le_of_lt (Nat.sub_le _ _) t.isLt)).2) := by
  obtain ⟨n, hn⟩ := t
  cases n with
  | zero => exact absurd (Nat.zero_mod _) h1
  | succ n => exact (dif_pos h0).trans ((dif_neg h1).trans rfl)

theorem outsAt_B (c : Dev nD) (t : Fin cfg0.N) (h0 : ¬t.val % 4 = 0) (h1 : ¬t.val % 16 = 0) :
    outsAt m c t.val t.isLt
      = (rowB m c t h0 h1 (outsAt m c (t.val - 1) (Nat.lt_of_le_of_lt (Nat.sub_le _ _) t.isLt)).1 (outsAt m c (t.val - 1) (Nat.lt_of_le_of_lt (Nat.sub_le _ _) t.isLt)).2,
         colB m c t h0 h1 (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The pipeline's proof data -/

/-- The arrays as the region finds them; after the body at point `t` each point block as fetched and the two result
    blocks at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each point block's staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Inside a sweep the row block's staging buffer holds what the point before left: the row block is written back only
    after a column tile 3. -/
theorem before2_B (c : Dev nD) (t : Fin cfg0.N) (h0 : ¬t.val % 4 = 0) (d) :
    (dats m 0 c).before 2 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Off a batch's start the column block's staging buffer holds what the point before left: the column block is written
    back only after a batch's last point. -/
theorem before3_BC (c : Dev nD) (t : Fin cfg0.N) (h1 : ¬t.val % 16 = 0) (d) :
    (dats m 0 c).before 3 t d = (outsAt m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the point blocks' memrefs hold their blocks; the position says which case applies; a carried
    block holds what the point before left; so that case's run applies, and what it leaves is `outsAt` there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 128 := lt_of_lt_of_eq t.isLt (show cfg0.N = 128 from N_0)
  by_cases h0 : t.val % 4 = 0
  · by_cases h1 : t.val % 16 = 0
    · rw [outsAt_A m c t h0 h1]
      dsimp only
      unfold rowA colA
      iintro ⟨HΦ, Ho, ⟨%d0, H0⟩, ⟨%d1, H1⟩, ⟨%d2, H2⟩, ⟨%d3, H3⟩⟩
      iapply ((runA c (grid0.coords t) _ _ _ _ _ _ _ _ ((hcond0 t).mpr h0) ((hcond1 t).mpr h1) (iblk m c 0 t) (iblk m c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA2 m c t h0 h1)
      unfold owns; iexists _; isplitr
      swap; · iexact H3
      ipureintro; exact View.read_writes_of_cover _ _ _ _ _ (coverA3 m c t h0 h1)
    · rw [outsAt_C m c t h0 h1]
      dsimp only
      simp only [before3_BC m c t h1]
      unfold rowC colC
      iintro ⟨HΦ, Ho, ⟨%d0, H0⟩, ⟨%d1, H1⟩, ⟨%d2, H2⟩, ⟨%d3, H3⟩⟩
      iapply ((runC c (grid0.coords t) _ _ _ _ _ _ _ _ ((hcond0 t).mpr h0) (fun h => h1 ((hcond1 t).mp h)) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC2 m c t h0 h1 _)
      unfold owns; iexists _; isplitr
      swap; · iexact H3
      ipureintro; rfl
  · have h1 : ¬t.val % 16 = 0 := fun h => h0 (by omega)
    rw [outsAt_B m c t h0 h1]
    dsimp only
    simp only [before2_B m c t h0, before3_BC m c t h1]
    unfold rowB colB
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (fun h => h1 ((hcond1 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB2 m c t h0 h1 _ _)
    unfold owns; iexists _; isplitr
    swap; · iexact H3
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer at what the host operations after the region
    make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tile

end
-- ==== Proof.Spec.lean ====
/-
  The chamfer distance between two batches of point clouds, as functions of the two argument arrays on the extended
  reals: the squared distance of point i of the first cloud to point j of the second, `‖x_i‖² + ‖y_j‖² − 2·⟨x_i, y_j⟩`;
  for each point of one cloud the least such distance to the other cloud; and the loss, the two means of those minima
  added and scaled.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- Eight clouds of 4096 points in three coordinates. -/
abbrev Pts : Shape := ⟨3, ![8, 4096, 3]⟩
/-- One number for each point of each cloud. -/
abbrev Per : Shape := ⟨2, ![8, 4096]⟩
/-- One number. -/
abbrev One : Shape := ⟨0, ![]⟩

/-- The float +∞, the value every minimum starts from. -/
abbrev inf32 : EReal := Ideal.ofBits .f32 0x7F800000#32
/-- The float 2. -/
abbrev two32 : EReal := Ideal.ofBits .f32 0x40000000#32

theorem inf32_eq_top : inf32 = ⊤ := by
  simp [Ideal.ofBits, Ideal.ieee]

/-- ‖x_i‖² in cloud `b`. -/
def sq (x : Pts.Idx → EReal) (b : Fin 8) (i : Fin 4096) : EReal := ∑ k : Fin 3, x (ix3 b i k) * x (ix3 b i k)
/-- ⟨x_i, y_j⟩ in cloud `b`. -/
def dot (x y : Pts.Idx → EReal) (b : Fin 8) (i j : Fin 4096) : EReal := ∑ k : Fin 3, x (ix3 b i k) * y (ix3 b j k)
/-- The squared distance of point `i` of `x` to point `j` of `y`, in cloud `b`. -/
def pd (x y : Pts.Idx → EReal) (b : Fin 8) (i j : Fin 4096) : EReal := (sq x b i + sq y b j) - two32 * dot x y b i j

/-- For each point of `x`, the least squared distance to a point of `y`. -/
def rowMin (x y : Pts.Idx → EReal) : Per.Idx → EReal :=
  fun ix => (Finset.univ : Finset (Fin 4096)).fold min inf32 (fun j => pd x y (ix 0) (ix 1) j)
/-- For each point of `y`, the least squared distance to a point of `x`. -/
def colMin (x y : Pts.Idx → EReal) : Per.Idx → EReal :=
  fun ix => (Finset.univ : Finset (Fin 4096)).fold min inf32 (fun i => pd x y (ix 0) i (ix 1))

/-- The loss from the two arrays of minima: each summed over all clouds and points from 0 and divided by 32768, the two
    means added (the one over the points of `y` first) and scaled by the float 0.005. -/
def loss (hr : Per.ReducesTo [0, 1] One) (h1 : 0 < One.numel) (cm rm : FVec Ideal Per .f32) : FVec Ideal One .f32 :=
  mulf (F := Ideal)
    (addf (F := Ideal)
      (Host.divf (F := Ideal) (Host.reduceAdd (F := Ideal) cm (constant (F := Ideal) One .f32 0x00000000#32) hr h1) (constant (F := Ideal) One .f32 0x47000000#32))
      (Host.divf (F := Ideal) (Host.reduceAdd (F := Ideal) rm (constant (F := Ideal) One .f32 0x00000000#32) hr h1) (constant (F := Ideal) One .f32 0x47000000#32)))
    (constant (F := Ideal) One .f32 0x3BA3D70A#32)

/-- A minimum over 4096 indices taken tile by tile: four tiles of 1024, each tile's minimum from +∞ folded into a running
    minimum from +∞. -/
theorem fold_min_tiles (f : Fin 4096 → EReal) :
    (Finset.univ : Finset (Fin 4096)).fold min inf32 f
      = min (min (min (min inf32
          ((Finset.univ : Finset (Fin 1024)).fold min inf32 fun q => f ⟨0 * 1024 + q.val, by omega⟩))
          ((Finset.univ : Finset (Fin 1024)).fold min inf32 fun q => f ⟨1 * 1024 + q.val, by omega⟩))
          ((Finset.univ : Finset (Fin 1024)).fold min inf32 fun q => f ⟨2 * 1024 + q.val, by omega⟩))
          ((Finset.univ : Finset (Fin 1024)).fold min inf32 fun q => f ⟨3 * 1024 + q.val, by omega⟩) := by
  -- Both sides have the same lower bounds: a bound of the whole fold bounds every tile's fold, and every index
  -- k < 4096 lies in the tile k / 1024 at the place k % 1024.
  refine eq_of_forall_le_iff fun c => ?_
  simp only [Finset.le_fold_min, le_min_iff, Finset.mem_univ, true_implies]
  constructor
  · rintro ⟨hc, h⟩
    exact ⟨⟨⟨⟨hc, hc, fun q => h _⟩, hc, fun q => h _⟩, hc, fun q => h _⟩, hc, fun q => h _⟩
  · rintro ⟨⟨⟨⟨hc, -, h0⟩, -, h1⟩, -, h2⟩, -, h3⟩
    refine ⟨hc, fun k => ?_⟩
    obtain ⟨k, hk⟩ := k
    have hq : k % 1024 < 1024 := Nat.mod_lt _ (by decide)
    obtain h | h | h | h : k / 1024 = 0 ∨ k / 1024 = 1 ∨ k / 1024 = 2 ∨ k / 1024 = 3 := by omega
    · exact (h0 ⟨k % 1024, hq⟩).trans_eq (congrArg f (Fin.ext (by show 0 * 1024 + k % 1024 = k; omega)))
    · exact (h1 ⟨k % 1024, hq⟩).trans_eq (congrArg f (Fin.ext (by show 1 * 1024 + k % 1024 = k; omega)))
    · exact (h2 ⟨k % 1024, hq⟩).trans_eq (congrArg f (Fin.ext (by show 2 * 1024 + k % 1024 = k; omega)))
    · exact (h3 ⟨k % 1024, hq⟩).trans_eq (congrArg f (Fin.ext (by show 3 * 1024 + k % 1024 = k; omega)))

end Cert.Chamfer

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.TilePayload.lean ====
/-
  One tile of the sweep, read at an index: from a block of 1024 points of each cloud the body forms the 1024 × 1024
  squared distances, and folds each row's minimum and each column's minimum into what it read from the two running blocks.
-/
import proofs.«132328_j377957122587_1_alg».proof.Proof.Gen.KernelIdeal.Skeleton
import proofs.«132328_j377957122587_1_alg».proof.Proof.Spec
import proofs.«132328_j377957122587_1_alg».proof.Proof.LibLayout
import Idealize.ShloMosaic.PureOps.Ideal.Laws
import Idealize.ShloMosaic.PureOps.Reduce
import Idealize.ShloMosaic.Lib.Pipeline.Value
import Idealize.ShloMosaic.Lib.ValueLayout

noncomputable section

namespace Cert.KernelIdeal.Payload

open Cert.KernelIdeal Cert.KernelIdeal.Gen
open Idealize.ShloMosaic Idealize.ShloMosaic.ValueIdx Cert.Chamfer

/-- ‖·‖² of point `p` of a block. -/
def sqB (xb : Vec Ideal S1x1024x3 .f32) (p : Fin 1024) : EReal := ∑ k : Fin 3, xb (ix3 0 p k) * xb (ix3 0 p k)
/-- ⟨x_p, y_q⟩ of two blocks. -/
def dotB (xb yb : Vec Ideal S1x1024x3 .f32) (p q : Fin 1024) : EReal := ∑ k : Fin 3, xb (ix3 0 p k) * yb (ix3 0 q k)
/-- The squared distance of point `p` of the first block to point `q` of the second. -/
def pdB (xb yb : Vec Ideal S1x1024x3 .f32) (p q : Fin 1024) : EReal := (sqB xb p + sqB yb q) - two32 * dotB xb yb p q

/-! ## Layout readings the library does not spell -/

section Layout
variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[1, 1, a]` reads, at `(u, w, i)`, the operand at `i`. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

end Layout

/-! ## The two blocks as matrices, their squared norms, one channel as a column or a row -/

/-- The first block as a `1024 × 3` matrix. -/
theorem pay6_apply (xb : Vec Ideal S1x1024x3 .f32) (p : Fin 1024) (k : Fin 3) :
    k0_pay6 (F := Ideal) xb (ix2 p k) = xb (ix3 0 p k) :=
  shapeCast_1ab_ab_apply xb shapeCasts_S1x1024x3_S1024x3 p k

/-- The second block as a `1024 × 3` matrix. -/
theorem pay7_apply (yb : Vec Ideal S1x1024x3 .f32) (q : Fin 1024) (k : Fin 3) :
    k0_pay7 (F := Ideal) yb (ix2 q k) = yb (ix3 0 q k) :=
  shapeCast_1ab_ab_apply yb shapeCasts_S1x1024x3_S1024x3 q k

/-- The index a sum over the three channels inserts over point `p`. -/
theorem lift_chan (p : Fin 1024) (k : Fin 3) :
    reduces_S1024x3_S1024.lift (ix1 p) k = ix2 p k := by
  funext c
  match c with
  | ⟨0, _⟩ => exact Fin.ext rfl
  | ⟨1, _⟩ => exact Fin.ext rfl

/-- A lane sum of squares over the three channels. -/
theorem sumsq_apply (m : FVec Ideal S1024x3 .f32) (p : Fin 1024) :
    multiReduction (F := Ideal) .add [1] S1024 (mulf m m) 0x00000000#32 reduces_S1024x3_S1024 (.inl rfl) rfl (ix1 p)
      = ∑ k : Fin 3, m (ix2 p k) * m (ix2 p k) := by
  refine (Ideal.multiReduction_add_single (mulf m m) _ reduces_S1024x3_S1024 _ _ (ix1 p)).trans ?_
  show ∑ k : Fin 3, mulf m m (reduces_S1024x3_S1024.lift (ix1 p) k) = _
  refine Finset.sum_congr rfl fun k _ => ?_
  rw [lift_chan]
  rfl

/-- The squared norms of the first block's points. -/
theorem pay8_apply (xb : Vec Ideal S1x1024x3 .f32) (p : Fin 1024) : k0_pay8 (F := Ideal) xb (ix1 p) = sqB xb p := by
  unfold k0_pay8 sqB
  refine (sumsq_apply (k0_pay6 xb) p).trans ?_
  refine Finset.sum_congr rfl fun k _ => ?_
  rw [pay6_apply]

/-- The squared norms of the second block's points. -/
theorem pay9_apply (yb : Vec Ideal S1x1024x3 .f32) (q : Fin 1024) : k0_pay9 (F := Ideal) yb (ix1 q) = sqB yb q := by
  unfold k0_pay9 sqB
  refine (sumsq_apply (k0_pay7 yb) q).trans ?_
  refine Finset.sum_congr rfl fun k _ => ?_
  rw [pay7_apply]

/-! ## One channel of a block, as a column broadcast over the columns and as a row broadcast over the rows -/

/-- Channel `c` of a `1024 × 3` matrix, cut out as a column, read at `(p, 0)`. -/
theorem chan_apply (m : FVec Ideal S1024x3 .f32) (o : ℕ) (h : S1024x3.Slices ![0, o] S1024x1) (c : Fin 3) (hc : c.val = o)
    (p : Fin 1024) (u : Fin 1) : extractStridedSlice S1024x1 ![0, o] m h (ix2 p u) = m (ix2 p c) :=
  slice2_axis1_apply o m h p u c (by have hu : u.val = 0 := by omega
                                     rw [hu, Nat.add_zero, hc])

/-- A column made a vector and a column again, broadcast over the columns: at `(p, q)` the column's entry of row `p`. -/
theorem colB_apply (v : FVec Ideal S1024x1 .f32) (p q : Fin 1024) :
    broadcastTo S1024x1024 (shapeCast S1024x1 (shapeCast S1024 v shapeCasts_S1024x1_S1024) shapeCasts_S1024_S1024x1)
      broadcasts_S1024x1_S1024x1024 (ix2 p q) = v (ix2 p 0) := by
  rw [shapeCast_shapeCast]
  exact Cert.LibLayout.broadcastTo_a1_ab_apply v broadcasts_S1024x1_S1024x1024 p q

/-- A column made a vector and then a row, broadcast over the rows: at `(p, q)` the column's entry of row `q`. -/
theorem rowB_apply (v : FVec Ideal S1024x1 .f32) (p q : Fin 1024) :
    broadcastTo S1024x1024 (shapeCast S1x1024 (shapeCast S1024 v shapeCasts_S1024x1_S1024) shapeCasts_S1024_S1x1024)
      broadcasts_S1x1024_S1024x1024 (ix2 p q) = v (ix2 q 0) :=
  (broadcastTo_1b_ab_apply _ broadcasts_S1x1024_S1024x1024 p q).trans
    ((shapeCast_a_1a_apply _ shapeCasts_S1024_S1x1024 0 q).trans
      (shapeCast_a1_a_apply v shapeCasts_S1024x1_S1024 q))

/-- A vector made a column, broadcast over the columns. -/
theorem vecColB_apply (v : FVec Ideal S1024 .f32) (p q : Fin 1024) :
    broadcastTo S1024x1024 (shapeCast S1024x1 v shapeCasts_S1024_S1024x1) broadcasts_S1024x1_S1024x1024 (ix2 p q) = v (ix1 p) :=
  (Cert.LibLayout.broadcastTo_a1_ab_apply _ broadcasts_S1024x1_S1024x1024 p q).trans
    (Cert.LibLayout.shapeCast_a_a1_apply v shapeCasts_S1024_S1024x1 p 0)

/-- A vector made a row, broadcast over the rows. -/
theorem vecRowB_apply (v : FVec Ideal S1024 .f32) (p q : Fin 1024) :
    broadcastTo S1024x1024 (shapeCast S1x1024 v shapeCasts_S1024_S1x1024) broadcasts_S1x1024_S1024x1024 (ix2 p q) = v (ix1 q) :=
  (broadcastTo_1b_ab_apply _ broadcasts_S1x1024_S1024x1024 p q).trans
    (shapeCast_a_1a_apply v shapeCasts_S1024_S1x1024 0 q)

/-- The products of the first two channels, added from zero. -/
theorem pay10_apply (xb yb : Vec Ideal S1x1024x3 .f32) (p q : Fin 1024) :
    k0_pay10 (F := Ideal) xb yb (ix2 p q)
      = (0 + xb (ix3 0 p 0) * yb (ix3 0 q 0)) + xb (ix3 0 p 1) * yb (ix3 0 q 1) := by
  unfold k0_pay10
  simp only [addf_apply, mulf_apply, broadcast_apply]
  rw [colB_apply, rowB_apply, colB_apply, rowB_apply]
  rw [chan_apply (k0_pay6 xb) 0 _ 0 rfl, chan_apply (k0_pay7 yb) 0 _ 0 rfl, chan_apply (k0_pay6 xb) 1 _ 1 rfl,
    chan_apply (k0_pay7 yb) 1 _ 1 rfl]
  rw [pay6_apply, pay6_apply, pay7_apply, pay7_apply]
  show (Ideal.ofBits .f32 0x00000000#32 + _) + _ = _
  rw [Ideal.ofBits_zero_f32]

/-- The third channel of the first block, as a column. -/
theorem pay11_apply (xb : Vec Ideal S1x1024x3 .f32) (p : Fin 1024) (u : Fin 1) :
    k0_pay11 (F := Ideal) xb (ix2 p u) = xb (ix3 0 p 2) := by
  unfold k0_pay11
  rw [shapeCast_shapeCast, chan_apply (k0_pay6 xb) 2 _ 2 rfl, pay6_apply]

/-- The third channel of the second block, as a column. -/
theorem pay12_apply (yb : Vec Ideal S1x1024x3 .f32) (q : Fin 1024) (u : Fin 1) :
    k0_pay12 (F := Ideal) yb (ix2 q u) = yb (ix3 0 q 2) := by
  unfold k0_pay12
  rw [chan_apply (k0_pay7 yb) 2 _ 2 rfl, pay7_apply]

/-- The tile over any operands: the two norm vectors added as a column and a row, less twice the products' sum. -/
theorem pay1_gen (v13 v15 : FVec Ideal S1024 .f32) (v36 : FVec Ideal S1024x1024 .f32) (v39 v40 : FVec Ideal S1024x1 .f32)
    (p q : Fin 1024) :
    k0_pay1 (F := Ideal) v13 v15 v36 v39 v40 (ix2 p q)
      = (v13 (ix1 p) + v15 (ix1 q)) - two32 * (v36 (ix2 p q) + v39 (ix2 p 0) * v40 (ix2 q 0)) := by
  unfold k0_pay1
  simp only [subf_apply, addf_apply, mulf_apply, broadcast_apply]
  rw [vecColB_apply, vecRowB_apply, rowB_apply, Cert.LibLayout.broadcastTo_a1_ab_apply]
  rfl

/-! ## A lane minimum, and the three values the body stores -/

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index a minimum along a row inserts over row `p`. -/
theorem lift_row (p q : Fin 1024) : reduces_S1024x1024_S1024.lift (ix1 p) q = ix2 p q := by
  funext c
  match c with
  | ⟨0, _⟩ => exact Fin.ext rfl
  | ⟨1, _⟩ => exact Fin.ext rfl

/-- The index a minimum along a column inserts over column `q`. -/
theorem lift_col (p q : Fin 1024) : reduces_S1024x1024_S1024_2.lift (ix1 q) p = ix2 p q := by
  funext c
  match c with
  | ⟨0, _⟩ => exact Fin.ext rfl
  | ⟨1, _⟩ => exact Fin.ext rfl

/-- Each row's minimum of a tile, from +∞. -/
theorem rowMin_apply (T : FVec Ideal S1024x1024 .f32) (p : Fin 1024) :
    multiReduction (F := Ideal) .minimumf [1] S1024 T 0x7F800000#32 reduces_S1024x1024_S1024 (.inl rfl) rfl (ix1 p)
      = (Finset.univ : Finset (Fin 1024)).fold min inf32 fun q => T (ix2 p q) := by
  refine (multiReduction_minimumf_single T _ reduces_S1024x1024_S1024 _ _ (ix1 p)).trans ?_
  show (Finset.univ : Finset (Fin 1024)).fold min inf32 (fun q : Fin 1024 => T (reduces_S1024x1024_S1024.lift (ix1 p) q)) = _
  exact Finset.fold_congr fun q _ => by rw [lift_row]

/-- Each column's minimum of a tile, from +∞. -/
theorem colMin_apply (T : FVec Ideal S1024x1024 .f32) (q : Fin 1024) :
    multiReduction (F := Ideal) .minimumf [0] S1024 T 0x7F800000#32 reduces_S1024x1024_S1024_2 (.inl rfl) rfl (ix1 q)
      = (Finset.univ : Finset (Fin 1024)).fold min inf32 fun p => T (ix2 p q) := by
  refine (multiReduction_minimumf_single T _ reduces_S1024x1024_S1024_2 _ _ (ix1 q)).trans ?_
  show (Finset.univ : Finset (Fin 1024)).fold min inf32 (fun p : Fin 1024 => T (reduces_S1024x1024_S1024_2.lift (ix1 q) p)) = _
  exact Finset.fold_congr fun p _ => by rw [lift_col]

/-- The row update over any operands. -/
theorem pay2_gen (v13 v15 : FVec Ideal S1024 .f32) (v36 : FVec Ideal S1024x1024 .f32) (v39 v40 : FVec Ideal S1024x1 .f32)
    (prev : Vec Ideal S1x1x1024 .f32) (p : Fin 1024) :
    k0_pay2 (F := Ideal) v13 v15 v36 v39 v40 prev (ix3 0 0 p)
      = min (prev (ix3 0 0 p))
          ((Finset.univ : Finset (Fin 1024)).fold min inf32 fun q => k0_pay1 (F := Ideal) v13 v15 v36 v39 v40 (ix2 p q)) := by
  unfold k0_pay2
  simp only [minimumf_apply]
  rw [shapeCast_self, shapeCast_a_11a_apply, rowMin_apply]

/-- The column update over any operands. -/
theorem pay3_gen (v13 v15 : FVec Ideal S1024 .f32) (v36 : FVec Ideal S1024x1024 .f32) (v39 v40 : FVec Ideal S1024x1 .f32)
    (prev : Vec Ideal S1x1x1024 .f32) (q : Fin 1024) :
    k0_pay3 (F := Ideal) v13 v15 v36 v39 v40 prev (ix3 0 0 q)
      = min (prev (ix3 0 0 q))
          ((Finset.univ : Finset (Fin 1024)).fold min inf32 fun p => k0_pay1 (F := Ideal) v13 v15 v36 v39 v40 (ix2 p q)) := by
  unfold k0_pay3
  simp only [minimumf_apply]
  rw [shapeCast_self, shapeCast_a_11a_apply, colMin_apply]

/-! ## The five values at the loaded blocks -/

/-- The tile of squared distances. -/
theorem pay1_apply (xb yb : Vec Ideal S1x1024x3 .f32) (p q : Fin 1024) :
    k0_pay1 (F := Ideal) (k0_pay8 xb) (k0_pay9 yb) (k0_pay10 xb yb) (k0_pay11 xb) (k0_pay12 yb) (ix2 p q) = pdB xb yb p q := by
  rw [pay1_gen, pay8_apply, pay9_apply, pay10_apply, pay11_apply, pay12_apply]
  unfold pdB dotB
  rw [Fin.sum_univ_three, zero_add]

/-- The row block's update: at point `p` the value read, lowered to the least distance of the tile's row `p`. -/
theorem pay2_apply (xb yb : Vec Ideal S1x1024x3 .f32) (prev : Vec Ideal S1x1x1024 .f32) (p : Fin 1024) :
    k0_pay2 (F := Ideal) (k0_pay8 xb) (k0_pay9 yb) (k0_pay10 xb yb) (k0_pay11 xb) (k0_pay12 yb) prev (ix3 0 0 p)
      = min (prev (ix3 0 0 p)) ((Finset.univ : Finset (Fin 1024)).fold min inf32 fun q => pdB xb yb p q) :=
  (pay2_gen _ _ _ _ _ prev p).trans
    (congrArg (min (prev (ix3 0 0 p))) (Finset.fold_congr fun q _ => pay1_apply xb yb p q))

/-- The column slice's update: at point `q` the value read, lowered to the least distance of the tile's column `q`. -/
theorem pay3_apply (xb yb : Vec Ideal S1x1024x3 .f32) (prev : Vec Ideal S1x1x1024 .f32) (q : Fin 1024) :
    k0_pay3 (F := Ideal) (k0_pay8 xb) (k0_pay9 yb) (k0_pay10 xb yb) (k0_pay11 xb) (k0_pay12 yb) prev (ix3 0 0 q)
      = min (prev (ix3 0 0 q)) ((Finset.univ : Finset (Fin 1024)).fold min inf32 fun p => pdB xb yb p q) :=
  (pay3_gen _ _ _ _ _ prev q).trans
    (congrArg (min (prev (ix3 0 0 q))) (Finset.fold_congr fun p _ => pay1_apply xb yb p q))

/-- The two resets write +∞ everywhere. -/
theorem pay4_apply (j : S1x1x1024.Idx) : k0_pay4 (F := Ideal) j = inf32 := rfl
theorem pay5_apply (j : S1x1x4096.Idx) : k0_pay5 (F := Ideal) j = inf32 := rfl

end Cert.KernelIdeal.Payload

end
-- ==== Proof.TileNames.lean ====
/-
  Names for the sweep's value: the two point blocks at a grid point and the two argument arrays, each at its literal type;
  a tile's row and column minima; and the squared distance at natural-number indices.
-/
import proofs.«132328_j377957122587_1_alg».proof.Proof.TileFrame
import proofs.«132328_j377957122587_1_alg».proof.Proof.TilePayload

set_option maxRecDepth 16384

noncomputable section

namespace Cert.KernelIdeal.Tile

open Cert.KernelIdeal Cert.KernelIdeal.Gen Cert.KernelIdeal.Payload Cert.Chamfer
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The grid has 128 points. -/
theorem N128 : cfg0.N = 128 := N_0
theorem lt128 (t : Fin cfg0.N) : t.val < 128 := lt_of_lt_of_eq t.isLt N128

/-- The block of the first cloud's points at grid point `t`, and of the second's. -/
abbrev xblk (c : Dev nD) (t : Fin cfg0.N) : Vec Ideal S1x1024x3 .f32 := iblk m c 0 t
abbrev yblk (c : Dev nD) (t : Fin cfg0.N) : Vec Ideal S1x1024x3 .f32 := iblk m c 1 t
/-- The two argument arrays as the region finds them. -/
abbrev xarr (c : Dev nD) : Pts.Idx → EReal := V m c main_arg0
abbrev yarr (c : Dev nD) : Pts.Idx → EReal := V m c main_arg1

/-- The least squared distance in row `p` of the tile at `t`, and in its column `q`. -/
def tileRow (c : Dev nD) (t : Fin cfg0.N) (p : Fin 1024) : EReal :=
  (Finset.univ : Finset (Fin 1024)).fold min inf32 fun q => pdB (xblk m c t) (yblk m c t) p q
def tileCol (c : Dev nD) (t : Fin cfg0.N) (q : Fin 1024) : EReal :=
  (Finset.univ : Finset (Fin 1024)).fold min inf32 fun p => pdB (xblk m c t) (yblk m c t) p q

/-- The squared distance at natural-number indices (0 off the arrays). -/
def pdN (x y : Pts.Idx → EReal) (b i j : ℕ) : EReal :=
  if h : b < 8 ∧ i < 4096 ∧ j < 4096 then pd x y ⟨b, h.1⟩ ⟨i, h.2.1⟩ ⟨j, h.2.2⟩ else 0

end Cert.KernelIdeal.Tile

end
-- ==== Proof.TilePieces.lean ====
/-
  What each case of the body leaves in the two result blocks, read at an index: the row block's entry `p` is the entry it
  started from (+∞ after a reset) lowered to the tile's row minimum; the column block's entry is changed only inside the
  slice the column tile selects, where it is the entry it started from lowered to the tile's column minimum.
-/
import proofs.«132328_j377957122587_1_alg».proof.Proof.TileNames
import Idealize.ShloMosaic.Lib.WritesUnit

set_option maxRecDepth 16384

noncomputable section

namespace Cert.KernelIdeal.Tile

open Cert.KernelIdeal Cert.KernelIdeal.Gen Cert.KernelIdeal.Payload Cert.Chamfer
open Idealize.ShloMosaic Idealize.ShloMosaic.TcCoe Idealize.ShloMosaic.ValueIdx Idealize.SL.Sem
open Idealize.ShloMosaic.Pipeline (Dat Cfg Window)
open Idealize.ShloMosaic.Tactic

variable (m : (ℓ : Loc nD τ sig) → Buf (Elt Ideal) ℓ)

/-- The zero offsets, as the run spells them. -/
theorem hz3 : (![0, 0, 0] : Fin 3 → ℕ) = fun _ => 0 := by
  funext a; match a with | ⟨0, _⟩ => rfl | ⟨1, _⟩ => rfl | ⟨2, _⟩ => rfl

/-- The column tile of grid point `t` is `t mod 4`. -/
theorem coord2 : ∀ t : Fin cfg0.N, (grid0.coords t 2).val = t.val % 4 :=
  (by decide +kernel : ∀ t : Fin grid0.N, (grid0.coords t 2).val = t.val % 4)

/-- The slice of the column block the body updates at point `t` starts at `1024 · (t mod 4)`. -/
theorem hoff (t : Fin cfg0.N) : k0_off1 (grid0.coords t) = ![0, 0, 1024 * (t.val % 4)] := by
  rw [k0_off1_eq, coord2]

/-- A list of writes whose newest piece is the slice `[1024·o, 1024·o + 1024)` of the column block, read at `r`: inside the
    slice the piece's payload at `r mod 1024`, outside it what the earlier pieces left. -/
theorem read_cons_slice {κ : Kind} {sp : Space} (v : View sig κ sp S1x1x4096 .f32) (f : v.ty.Contents (Elt Ideal))
    {off : Fin 3 → ℕ} (inb : ∀ a, off a + S1x1x1024.size a ≤ S1x1x4096.size a)
    (w : (Rect.unit (s := S1x1x4096) off S1x1x1024.size inb).shape.Idx → Elt Ideal .f32)
    (L : List (View.Piece (Elt Ideal) S1x1x4096 .f32)) (r : Fin 4096) (o : ℕ) (heq : off = ![0, 0, 1024 * o]) :
    v.read (Elt Ideal) (v.writes (Elt Ideal) f (⟨Rect.unit off S1x1x1024.size inb, w⟩ :: L)) (ix3 0 0 r)
      = if r.val / 1024 = o then w (ix3 0 0 ⟨r.val % 1024, Nat.mod_lt _ (by norm_num)⟩)
        else v.read (Elt Ideal) (v.writes (Elt Ideal) f L) (ix3 0 0 r) := by
  rw [View.read_writes_cons_unit v f inb w L (ix3 0 0 r) heq]
  by_cases h : r.val / 1024 = o
  · have hall : ∀ a : Fin 3, (![0, 0, 1024 * o] : Fin 3 → ℕ) a ≤ ((ix3 (n0 := 1) (n1 := 1) 0 0 r) a).val
        ∧ ((ix3 (n0 := 1) (n1 := 1) 0 0 r) a).val < (![0, 0, 1024 * o] : Fin 3 → ℕ) a + S1x1x1024.size a := fun a => by
      match a with
      | ⟨0, _⟩ => exact ⟨Nat.le_refl _, Nat.one_pos⟩
      | ⟨1, _⟩ => exact ⟨Nat.le_refl _, Nat.one_pos⟩
      | ⟨2, _⟩ =>
        show 1024 * o ≤ r.val ∧ r.val < 1024 * o + 1024
        omega
    rw [dif_pos hall, if_pos h]
    refine congrArg w (funext fun a => Fin.ext ?_)
    match a with
    | ⟨0, _⟩ => rfl
    | ⟨1, _⟩ => rfl
    | ⟨2, _⟩ =>
      show r.val - 1024 * o = r.val % 1024
      omega
  · rw [if_neg h, dif_neg]
    intro hall
    have h2 := hall ⟨2, by decide⟩
    have h2' : 1024 * o ≤ r.val ∧ r.val < 1024 * o + 1024 := h2
    omega

/-- What a load of that slice reads of contents `X`: at `q`, the entry `1024·o + q`. -/
theorem ld_slice (X : S1x1x4096.Idx → Elt Ideal .f32) {off : Fin 3 → ℕ} (inb : ∀ a, off a + S1x1x1024.size a ≤ S1x1x4096.size a)
    (o : ℕ) (heq : off = ![0, 0, 1024 * o]) (q : Fin 1024) (r : Fin 4096) (hr : r.val = 1024 * o + q.val) :
    View.ld X (Rect.unit (s := S1x1x4096) off S1x1x1024.size inb) (ix3 0 0 q) = X (ix3 0 0 r) := by
  subst heq
  refine congrArg X (funext fun a => Fin.ext ?_)
  match a with
  | ⟨0, _⟩ => rfl
  | ⟨1, _⟩ => rfl
  | ⟨2, _⟩ =>
    show 1024 * o + 1 * q.val = r.val
    omega

theorem rowA_apply (c : Dev nD) (t : Fin cfg0.N) (h0 : t.val % 4 = 0) (h1 : t.val % 16 = 0) (p : Fin 1024) :
    rowA m c t h0 h1 (ix3 0 0 p) = min inf32 (tileRow m c t p) := by
  -- The newest piece covers the block: the update of what was reloaded after the reset, which is +∞ everywhere.
  unfold rowA
  rw [View.read_writes_junk_eq_canon]
  unfold runA
  dsimp only
  sl_unfold_words
  rw [View.canon_cons_unit_zero (S := S1x1x1024) hz3]
  simp only [View.readAt_eq_ld, Memref.IsWhole.read_unread, View.ld_unit_zero (S := S1x1024x3) hz3,
    View.readCov_unit_zero (S := S1x1x1024) _ hz3]
  refine (pay2_apply (xblk m c t) (yblk m c t) (k0_pay4 (F := Ideal)) p).trans ?_
  rw [pay4_apply]
  rfl

theorem rowC_apply (c : Dev nD) (t : Fin cfg0.N) (h0 : t.val % 4 = 0) (h1 : ¬t.val % 16 = 0) (xo3 : Vec Ideal S1x1x4096 .f32) (p : Fin 1024) :
    rowC m c t h0 h1 xo3 (ix3 0 0 p) = min inf32 (tileRow m c t p) := by
  -- As where a batch starts: the row block is reset, reloaded and updated.
  unfold rowC
  rw [View.read_writes_junk_eq_canon]
  unfold runC
  dsimp only
  sl_unfold_words
  rw [View.canon_cons_unit_zero (S := S1x1x1024) hz3]
  simp only [View.readAt_eq_ld, Memref.IsWhole.read_unread, View.ld_unit_zero (S := S1x1024x3) hz3,
    View.readCov_unit_zero (S := S1x1x1024) _ hz3]
  refine (pay2_apply (xblk m c t) (yblk m c t) (k0_pay4 (F := Ideal)) p).trans ?_
  rw [pay4_apply]
  rfl

theorem rowB_apply (c : Dev nD) (t : Fin cfg0.N) (h0 : ¬t.val % 4 = 0) (h1 : ¬t.val % 16 = 0) (xo2 : Vec Ideal S1x1x1024 .f32) (xo3 : Vec Ideal S1x1x4096 .f32) (p : Fin 1024) :
    rowB m c t h0 h1 xo2 xo3 (ix3 0 0 p) = min (xo2 (ix3 0 0 p)) (tileRow m c t p) := by
  -- One piece, covering the block: the update of the block as handed over.
  unfold rowB
  rw [View.read_writes_junk_eq_canon]
  unfold runB
  dsimp only
  sl_unfold_words
  rw [View.canon_unit_zero (S := S1x1x1024) hz3]
  simp only [View.readAt_eq_ld, Memref.IsWhole.read_unread, View.ld_unit_zero (S := S1x1x1024) hz3,
    View.ld_unit_zero (S := S1x1024x3) hz3]
  exact pay2_apply (xblk m c t) (yblk m c t) xo2 p

theorem colA_apply (c : Dev nD) (t : Fin cfg0.N) (h0 : t.val % 4 = 0) (h1 : t.val % 16 = 0) (r : Fin 4096) :
    colA m c t h0 h1 (ix3 0 0 r)
      = if r.val / 1024 = t.val % 4 then min inf32 (tileCol m c t ⟨r.val % 1024, Nat.mod_lt _ (by norm_num)⟩) else inf32 := by
  -- The newest piece is the slice's update, of a slice reloaded after the reset (+∞ everywhere); under it lies the reset.
  unfold colA
  unfold runA
  dsimp only
  sl_unfold_words
  refine (read_cons_slice _ _ _ _ _ r (t.val % 4) (hoff t)).trans ?_
  simp only [View.readAt_eq_ld, Memref.IsWhole.read_unread, View.ld_unit_zero (S := S1x1024x3) hz3,
    View.read_writes_junk_eq_canon, View.canon_unit_zero (S := S1x1x4096) hz3]
  by_cases h : r.val / 1024 = t.val % 4
  · rw [if_pos h, if_pos h]
    refine (pay3_apply (xblk m c t) (yblk m c t) _ _).trans ?_
    rfl
  · rw [if_neg h, if_neg h]
    rfl

theorem colC_apply (c : Dev nD) (t : Fin cfg0.N) (h0 : t.val % 4 = 0) (h1 : ¬t.val % 16 = 0) (xo3 : Vec Ideal S1x1x4096 .f32) (r : Fin 4096) :
    colC m c t h0 h1 xo3 (ix3 0 0 r)
      = if r.val / 1024 = t.val % 4 then min (xo3 (ix3 0 0 r)) (tileCol m c t ⟨r.val % 1024, Nat.mod_lt _ (by norm_num)⟩) else xo3 (ix3 0 0 r) := by
  -- One piece over the carried block: the slice's update, of the slice as handed over.
  unfold colC
  unfold runC
  dsimp only
  sl_unfold_words
  refine (read_cons_slice _ _ _ _ _ r (t.val % 4) (hoff t)).trans ?_
  simp only [View.readAt_eq_ld, Memref.IsWhole.read_unread, View.ld_unit_zero (S := S1x1024x3) hz3, View.writes_nil]
  by_cases h : r.val / 1024 = t.val % 4
  · rw [if_pos h, if_pos h]
    refine (pay3_apply (xblk m c t) (yblk m c t) _ _).trans ?_
    exact congrArg₂ min (ld_slice xo3 _ (t.val % 4) (hoff t) ⟨r.val % 1024, Nat.mod_lt _ (by norm_num)⟩ r
      (by show r.val = 1024 * (t.val % 4) + r.val % 1024; omega)) rfl
  · rw [if_neg h, if_neg h]

theorem colB_apply (c : Dev nD) (t : Fin cfg0.N) (h0 : ¬t.val % 4 = 0) (h1 : ¬t.val % 16 = 0) (xo2 : Vec Ideal S1x1x1024 .f32) (xo3 : Vec Ideal S1x1x4096 .f32) (r : Fin 4096) :
    colB m c t h0 h1 xo2 xo3 (ix3 0 0 r)
      = if r.val / 1024 = t.val % 4 then min (xo3 (ix3 0 0 r)) (tileCol m c t ⟨r.val % 1024, Nat.mod_lt _ (by norm_num)⟩) else xo3 (ix3 0 0 r) := by
  -- As where a later row tile starts.
  unfold colB
  unfold runB
  dsimp only
  sl_unfold_words
  refine (read_cons_slice _ _ _ _ _ r (t.val % 4) (hoff t)).trans ?_
  simp only [View.readAt_eq_ld, Memref.IsWhole.read_unread, View.ld_unit_zero (S := S1x1024x3) hz3, View.writes_nil]
  by_cases h : r.val / 1024 = t.val % 4
  · rw [if_pos h, if_pos h]
    refine (pay3_apply (xblk m c t) (yblk m c t) _ _).trans ?_
    exact congrArg₂ min (ld_slice xo3 _ (t.val % 4) (hoff t) ⟨r.val % 1024, Nat.mod_lt _ (by norm_num)⟩ r
      (by show r.val = 1024 * (t.val % 4) + r.val % 1024; omega)) rfl
  · rw [if_neg h, if_neg h]

end Cert.KernelIdeal.Tile

end
-- ==== Proof.TileBlocks.lean ====
/-
  A tile's squared distances are the arrays': at grid point `t` — cloud `t / 16`, row tile `t / 4 % 4`, column tile `t % 4` —
  entry (p, q) of the tile is the squared distance of point `1024·(t / 4 % 4) + p` of the first cloud to point
  `1024·(t % 4) + q` of the second.
-/
import proofs.«132328_j377957122587_1_alg».proof.Proof.TileNames

set_option maxRecDepth 16384

noncomputable section

namespace Cert.KernelIdeal.Tile

open Cert.KernelIdeal Cert.KernelIdeal.Gen Cert.KernelIdeal.Payload Cert.Chamfer
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The index maps of the two point windows, decided over the grid: at point `t` the first cloud's block is block
    `(t / 16, t / 4 % 4, 0)` of its array and the second's is block `(t / 16, t % 4, 0)`. -/
theorem idx_facts01 : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0 :=
  (by decide +kernel : ∀ t : Fin grid0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0)

/-- Coordinate `k` of point `p` of the first cloud's block at `t` is coordinate `k` of point `1024·(t / 4 % 4) + p` of
    cloud `t / 16`: on each axis the array coordinate is the block's index times the block's extent plus the coordinate
    inside the block. -/
theorem xblk_apply (c : Dev nD) (t : Fin cfg0.N) (p : Fin 1024) (k : Fin 3) :
    xblk m c t (ix3 0 p k)
      = xarr m c (ix3 ⟨t.val / 16, by have := lt128 t; omega⟩ ⟨1024 * (t.val / 4 % 4) + p.val, by omega⟩ k) := by
  obtain ⟨e0, e1, e2, -⟩ := idx_facts01 t
  have ht := lt128 t
  show ((cfg0.win 0).blk t).view.read (Elt Ideal) (V m c (Pipeline.arrRef spec0 0)) (ix3 0 p k) = V m c main_arg0 _
  rw [View.read_apply]
  show V m c main_arg0 (((cfg0.win 0).blk t).view.emb (ix3 0 p k)) = V m c main_arg0 _
  congr 1
  funext a; apply Fin.ext
  match a with
  | ⟨0, _⟩ => show win0_0.index t (0 : Fin 3) * 1 + 1 * 0 = t.val / 16; omega
  | ⟨1, _⟩ => show win0_0.index t (1 : Fin 3) * 1024 + 1 * p.val = 1024 * (t.val / 4 % 4) + p.val; omega
  | ⟨2, _⟩ => show win0_0.index t (2 : Fin 3) * 3 + 1 * k.val = k.val; omega

/-- The same for the second cloud's block, whose point tile is `t % 4`. -/
theorem yblk_apply (c : Dev nD) (t : Fin cfg0.N) (q : Fin 1024) (k : Fin 3) :
    yblk m c t (ix3 0 q k)
      = yarr m c (ix3 ⟨t.val / 16, by have := lt128 t; omega⟩ ⟨1024 * (t.val % 4) + q.val, by omega⟩ k) := by
  obtain ⟨-, -, -, e0, e1, e2⟩ := idx_facts01 t
  have ht := lt128 t
  show ((cfg0.win 1).blk t).view.read (Elt Ideal) (V m c (Pipeline.arrRef spec0 1)) (ix3 0 q k) = V m c main_arg1 _
  rw [View.read_apply]
  show V m c main_arg1 (((cfg0.win 1).blk t).view.emb (ix3 0 q k)) = V m c main_arg1 _
  congr 1
  funext a; apply Fin.ext
  match a with
  | ⟨0, _⟩ => show win0_1.index t (0 : Fin 3) * 1 + 1 * 0 = t.val / 16; omega
  | ⟨1, _⟩ => show win0_1.index t (1 : Fin 3) * 1024 + 1 * q.val = 1024 * (t.val % 4) + q.val; omega
  | ⟨2, _⟩ => show win0_1.index t (2 : Fin 3) * 3 + 1 * k.val = k.val; omega

theorem tile_pd (c : Dev nD) (t : Fin cfg0.N) (p q : Fin 1024) :
    pdB (xblk m c t) (yblk m c t) p q
      = pdN (xarr m c) (yarr m c) (t.val / 16) (1024 * (t.val / 4 % 4) + p.val) (1024 * (t.val % 4) + q.val) := by
  have ht := lt128 t
  -- the three indices are on the arrays
  unfold pdN
  rw [dif_pos ⟨by omega, by omega, by omega⟩]
  -- both sides are the same sums over the three coordinates, each block entry an array entry
  unfold pdB Chamfer.pd sqB Chamfer.sq dotB Chamfer.dot
  simp only [xblk_apply, yblk_apply]

end Cert.KernelIdeal.Tile

end
-- ==== Proof.TileSweep.lean ====
/-
  The sweep's invariant and its end. At grid point `n` — cloud `n / 16`, row tile `n / 4 % 4`, column tile `n % 4` — the
  row block holds, for each of its 1024 points, the running minimum over the column tiles `0 … n % 4` of this row tile;
  the column block's entry in column tile `j'` holds the running minimum over the row tiles whose tile `j'` has been
  visited: `0 … n / 4 % 4` when `j' ≤ n % 4`, one fewer otherwise. So after the last column tile of a row tile the row
  block holds the least squared distance to all 4096 points of the other cloud, and after a batch's last point the
  column block holds the same for the other cloud's points: a minimum over 4096 taken tile by tile.
-/
import proofs.«132328_j377957122587_1_alg».proof.Proof.TilePieces
import proofs.«132328_j377957122587_1_alg».proof.Proof.TileBlocks

set_option maxRecDepth 16384

noncomputable section

namespace Cert.KernelIdeal.Tile

open Cert.KernelIdeal Cert.KernelIdeal.Gen Cert.KernelIdeal.Payload Cert.Chamfer
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

section Acc
variable (x y : Pts.Idx → EReal)

/-- The least squared distance in row `p` of tile (i, j) of cloud `b`, and in its column `q`. -/
def tRow (b i j p : ℕ) : EReal :=
  (Finset.univ : Finset (Fin 1024)).fold min inf32 fun q => pdN x y b (1024 * i + p) (1024 * j + q.val)
def tCol (b i j q : ℕ) : EReal :=
  (Finset.univ : Finset (Fin 1024)).fold min inf32 fun p => pdN x y b (1024 * i + p.val) (1024 * j + q)

/-- The row block's running minimum after column tiles `0 … j`. -/
def rowAcc (b i p : ℕ) : ℕ → EReal
  | 0 => min inf32 (tRow x y b i 0 p)
  | j + 1 => min (rowAcc b i p j) (tRow x y b i (j + 1) p)
/-- The column block's running minimum after row tiles `0 … n - 1`. -/
def colAcc (b j q : ℕ) : ℕ → EReal
  | 0 => inf32
  | n + 1 => min (colAcc b j q n) (tCol x y b n j q)

end Acc

theorem tileRow_eq (c : Dev nD) (n : ℕ) (hn : n < cfg0.N) (p : Fin 1024) :
    tileRow m c ⟨n, hn⟩ p = tRow (xarr m c) (yarr m c) (n / 16) (n / 4 % 4) (n % 4) p.val := by
  unfold tileRow tRow
  congr 1
  funext q
  exact tile_pd m c ⟨n, hn⟩ p q

theorem tileCol_eq (c : Dev nD) (n : ℕ) (hn : n < cfg0.N) (q : Fin 1024) :
    tileCol m c ⟨n, hn⟩ q = tCol (xarr m c) (yarr m c) (n / 16) (n / 4 % 4) (n % 4) q.val := by
  unfold tileCol tCol
  congr 1
  funext p
  exact tile_pd m c ⟨n, hn⟩ p q

/-- The invariant at point `n`. -/
def Inv (c : Dev nD) (n : ℕ) (hn : n < cfg0.N) : Prop :=
  (∀ p : Fin 1024, (outsAt m c n hn).1 (ix3 0 0 p) = rowAcc (xarr m c) (yarr m c) (n / 16) (n / 4 % 4) p.val (n % 4))
  ∧ (∀ r : Fin 4096, (outsAt m c n hn).2 (ix3 0 0 r)
      = colAcc (xarr m c) (yarr m c) (n / 16) (r.val / 1024) (r.val % 1024) (if r.val / 1024 ≤ n % 4 then n / 4 % 4 + 1 else n / 4 % 4))

theorem inv (c : Dev nD) : ∀ (n : ℕ) (hn : n < cfg0.N), Inv m c n hn := by
  intro n
  induction n using Nat.strong_induction_on with
  | _ n ih =>
    intro hn
    have h128 : n < 128 := lt_of_lt_of_eq hn N128
    by_cases h0 : n % 4 = 0
    · by_cases h1 : n % 16 = 0
      · -- a batch starts: both blocks reset
        have e : outsAt m c n hn = (rowA m c ⟨n, hn⟩ h0 h1, colA m c ⟨n, hn⟩ h0 h1) := outsAt_A m c ⟨n, hn⟩ h0 h1
        have hi : n / 4 % 4 = 0 := by omega
        refine ⟨fun p => ?_, fun r => ?_⟩
        · rw [e]; dsimp only
          rw [rowA_apply, tileRow_eq, h0]
          rfl
        · have hr4 : r.val / 1024 < 4 := by have := r.isLt; omega
          rw [e]; dsimp only
          rw [colA_apply, tileCol_eq]
          dsimp only
          rw [h0, hi]
          by_cases hr : r.val / 1024 = 0
          · rw [if_pos hr, if_pos (by omega), hr]
            rfl
          · rw [if_neg hr, if_neg (by omega)]
            rfl
      · -- a later row tile starts: the row block reset, the column block carried
        have hk : n - 1 < cfg0.N := by omega
        have e : outsAt m c n hn = (rowC m c ⟨n, hn⟩ h0 h1 (outsAt m c (n - 1) hk).2, colC m c ⟨n, hn⟩ h0 h1 (outsAt m c (n - 1) hk).2) :=
          outsAt_C m c ⟨n, hn⟩ h0 h1
        have hprev := ih (n - 1) (by omega) hk
        have hb : (n - 1) / 16 = n / 16 := by omega
        have hi' : (n - 1) / 4 % 4 + 1 = n / 4 % 4 := by omega
        have hj' : (n - 1) % 4 = 3 := by omega
        refine ⟨fun p => ?_, fun r => ?_⟩
        · rw [e]; dsimp only
          rw [rowC_apply, tileRow_eq, h0]
          rfl
        · have hr4 : r.val / 1024 < 4 := by have := r.isLt; omega
          rw [e]; dsimp only
          rw [colC_apply, hprev.2 r, tileCol_eq]
          dsimp only
          rw [if_pos (show r.val / 1024 ≤ (n - 1) % 4 by omega), hb, hi', h0]
          by_cases hr : r.val / 1024 = 0
          · rw [if_pos hr, if_pos (by omega), hr]
            rfl
          · rw [if_neg hr, if_neg (by omega)]
    · -- inside a sweep over the column tiles: both blocks carried
      have h1 : ¬n % 16 = 0 := fun h => h0 (by omega)
      have hk : n - 1 < cfg0.N := by omega
      have e : outsAt m c n hn
          = (rowB m c ⟨n, hn⟩ h0 h1 (outsAt m c (n - 1) hk).1 (outsAt m c (n - 1) hk).2,
             colB m c ⟨n, hn⟩ h0 h1 (outsAt m c (n - 1) hk).1 (outsAt m c (n - 1) hk).2) := outsAt_B m c ⟨n, hn⟩ h0 h1
      have hprev := ih (n - 1) (by omega) hk
      have hb : (n - 1) / 16 = n / 16 := by omega
      have hi' : (n - 1) / 4 % 4 = n / 4 % 4 := by omega
      obtain ⟨j', hj⟩ : ∃ j', n % 4 = j' + 1 := ⟨n % 4 - 1, by omega⟩
      have hj' : (n - 1) % 4 = j' := by omega
      refine ⟨fun p => ?_, fun r => ?_⟩
      · rw [e]; dsimp only
        rw [rowB_apply, hprev.1 p, tileRow_eq, hb, hi', hj', hj]
        rfl
      · have hr4 : r.val / 1024 < 4 := by have := r.isLt; omega
        rw [e]; dsimp only
        rw [colB_apply, hprev.2 r, tileCol_eq]
        dsimp only
        rw [hb, hi', hj', hj]
        by_cases hr : r.val / 1024 = j' + 1
        · rw [if_pos hr, if_neg (show ¬r.val / 1024 ≤ j' by omega), if_pos (show r.val / 1024 ≤ j' + 1 by omega), hr]
          rfl
        · rw [if_neg hr]
          by_cases hle : r.val / 1024 ≤ j'
          · rw [if_pos hle, if_pos (show r.val / 1024 ≤ j' + 1 by omega)]
          · rw [if_neg hle, if_neg (show ¬r.val / 1024 ≤ j' + 1 by omega)]

/-- Inside the arrays the squared distance at natural-number indices is the squared distance. -/
theorem pdN_eq (x y : Pts.Idx → EReal) (b : Fin 8) (i j : Fin 4096) (b' i' j' : ℕ) (hb : b' = b.val) (hi : i' = i.val) (hj : j' = j.val) :
    pdN x y b' i' j' = pd x y b i j := by
  subst hb hi hj
  unfold pdN
  rw [dif_pos ⟨b.isLt, i.isLt, j.isLt⟩]

theorem row_final (c : Dev nD) (b : Fin 8) (i : Fin 4) (p : Fin 1024) :
    (outsAt m c (16 * b.val + 4 * i.val + 3) (by rw [N128]; omega)).1 (ix3 0 0 p)
      = rowMin (xarr m c) (yarr m c) (ix2 b ⟨1024 * i.val + p.val, by omega⟩) := by
  have hn : 16 * b.val + 4 * i.val + 3 < cfg0.N := by rw [N128]; omega
  rw [(inv m c _ hn).1 p]
  have e1 : (16 * b.val + 4 * i.val + 3) / 16 = b.val := by omega
  have e2 : (16 * b.val + 4 * i.val + 3) / 4 % 4 = i.val := by omega
  have e3 : (16 * b.val + 4 * i.val + 3) % 4 = 3 := by omega
  rw [e1, e2, e3]
  show _ = (Finset.univ : Finset (Fin 4096)).fold min inf32 (fun j => pd (xarr m c) (yarr m c) b ⟨1024 * i.val + p.val, by omega⟩ j)
  rw [fold_min_tiles]
  unfold rowAcc rowAcc rowAcc rowAcc tRow
  congr 2 <;> (try congr 2) <;> (try congr 2) <;> (try congr 2) <;>
    · funext q
      exact pdN_eq _ _ b ⟨1024 * i.val + p.val, by omega⟩ ⟨_, by omega⟩ _ _ _ rfl rfl (by first | rfl | omega | (simp only [Fin.val_mk]; omega))

theorem col_final (c : Dev nD) (b : Fin 8) (r : Fin 4096) :
    (outsAt m c (16 * b.val + 15) (by rw [N128]; omega)).2 (ix3 0 0 r)
      = colMin (xarr m c) (yarr m c) (ix2 b r) := by
  have hn : 16 * b.val + 15 < cfg0.N := by rw [N128]; omega
  have hr4 : r.val / 1024 < 4 := by have := r.isLt; omega
  rw [(inv m c _ hn).2 r]
  have e1 : (16 * b.val + 15) / 16 = b.val := by omega
  have e2 : (16 * b.val + 15) / 4 % 4 = 3 := by omega
  have e3 : (16 * b.val + 15) % 4 = 3 := by omega
  rw [e1, e2, e3, if_pos (by omega)]
  show _ = (Finset.univ : Finset (Fin 4096)).fold min inf32 (fun i => pd (xarr m c) (yarr m c) b i r)
  rw [fold_min_tiles]
  unfold colAcc colAcc colAcc colAcc colAcc tCol
  congr 2 <;> (try congr 2) <;> (try congr 2) <;> (try congr 2) <;>
    · funext q
      exact pdN_eq _ _ b ⟨_, by omega⟩ r _ _ _ rfl (by first | rfl | omega | (simp only [Fin.val_mk]; omega)) (by first | rfl | omega | (simp only [Fin.val_mk]; omega))

end Cert.KernelIdeal.Tile

end
-- ==== Proof.TileArrays.lean ====
/-
  From the blocks to the arrays: the row blocks written back after each row tile's sweep tile the first result array, the
  column blocks written back after each batch tile the second, so the two arrays end at the two arrays of minima.
-/
import proofs.«132328_j377957122587_1_alg».proof.Proof.TileSweep
import Idealize.ShloMosaic.Lib.Pipeline.Value

set_option maxRecDepth 16384

noncomputable section

namespace Cert.KernelIdeal.Tile

open Cert.KernelIdeal Cert.KernelIdeal.Gen Cert.KernelIdeal.Payload Cert.Chamfer
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The index maps of the two result windows, decided over the grid: at point `t` the row block is block
    `(t / 16, 0, t / 4 % 4)` of the first result array and the column block is block `(t / 16, 0, 0)` of the second. -/
theorem arrays_idx_facts : ∀ t : Fin cfg0.N,
    win0_2.index t (0 : Fin 3) = t.val / 16 ∧ win0_2.index t (1 : Fin 3) = 0 ∧ win0_2.index t (2 : Fin 3) = t.val / 4 % 4
    ∧ win0_3.index t (0 : Fin 3) = t.val / 16 ∧ win0_3.index t (1 : Fin 3) = 0 ∧ win0_3.index t (2 : Fin 3) = 0 :=
  (by decide +kernel : ∀ t : Fin grid0.N,
    win0_2.index t (0 : Fin 3) = t.val / 16 ∧ win0_2.index t (1 : Fin 3) = 0 ∧ win0_2.index t (2 : Fin 3) = t.val / 4 % 4
    ∧ win0_3.index t (0 : Fin 3) = t.val / 16 ∧ win0_3.index t (1 : Fin 3) = 0 ∧ win0_3.index t (2 : Fin 3) = 0)

/-- The two blocks after a position do not depend on how the position is written. -/
theorem arrays_outsAt_congr (c : Dev nD) {n n' : ℕ} (e : n = n') (h : n < cfg0.N) (h' : n' < cfg0.N) :
    outsAt m c n h = outsAt m c n' h' := by
  subst e; rfl

/-- The first result array the program is to end with. -/
abbrev rowG (c : Dev nD) : FVec Ideal S8x1x4096 .f32 := fun ix => rowMin (xarr m c) (yarr m c) (ix2 (ix 0) (ix 2))

/-- What a point that writes the row block back writes is its block of that array: the point is the last column tile of a
    row tile, where the row block holds its 1024 points' least distances to all of the other cloud. -/
theorem row_flushed_eq (c : Dev nD) (t : Fin cfg0.N) (hf : (cfg0.win 2).flush t = true) :
    (dats m 0 c).flushed 2 t = ((cfg0.win 2).blk t).view.read (Elt Ideal) (rowG m c) := by
  have ht := lt128 t
  have h3 : t.val % 4 = 3 := (flush0_2 t).mp hf
  obtain ⟨e0, e1, e2, -⟩ := arrays_idx_facts t
  show (cfg0.win 2).cut (grid0.coords t) ((dats m 0 c).after 2 t) = _
  rw [after2]
  have e : t.val = 16 * (t.val / 16) + 4 * (t.val / 4 % 4) + 3 := by omega
  refine funext fun (y : S1x1x1024.Idx) => ?_
  obtain ⟨a, b', p, rfl⟩ : ∃ (a b' : Fin 1) (p : Fin 1024), y = ix3 a b' p := ⟨y 0, y 1, y 2, eq_ix3 y⟩
  obtain rfl : a = 0 := Subsingleton.elim _ _
  obtain rfl : b' = 0 := Subsingleton.elim _ _
  rw [View.read_apply]
  have hemb : (((cfg0.win 2).blk t).view.emb (ix3 0 0 p) : S8x1x4096.Idx)
      = ix3 ⟨t.val / 16, by omega⟩ 0 ⟨1024 * (t.val / 4 % 4) + p.val, by omega⟩ := by
    funext a; apply Fin.ext
    match a with
    | ⟨0, _⟩ => show win0_2.index t (0 : Fin 3) * 1 + 1 * 0 = t.val / 16; omega
    | ⟨1, _⟩ => show win0_2.index t (1 : Fin 3) * 1 + 1 * 0 = 0; omega
    | ⟨2, _⟩ => show win0_2.index t (2 : Fin 3) * 1024 + 1 * p.val = 1024 * (t.val / 4 % 4) + p.val; omega
  show (outsAt m c t.val t.isLt).1 (ix3 0 0 p) = rowG m c (((cfg0.win 2).blk t).view.emb (ix3 0 0 p))
  rw [hemb, arrays_outsAt_congr m c e t.isLt (by have hN := N128; omega)]
  exact row_final m c ⟨t.val / 16, by omega⟩ ⟨t.val / 4 % 4, by omega⟩ p

/-- An index of the first result array is in point `t`'s row block iff each coordinate is in the block's range on its axis. -/
theorem row_mem_blk (t : Fin cfg0.N) (i : S8x1x4096.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

/-- Every index `(b, 0, r)` of the first result array is in the row block written back after the last column tile of
    row tile `r / 1024` of cloud `b`. -/
theorem row_cover (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  obtain ⟨t, tv⟩ : ∃ t : Fin cfg0.N, t.val = 16 * (i 0).val + 4 * ((i 2).val / 1024) + 3 :=
    ⟨⟨16 * (i 0).val + 4 * ((i 2).val / 1024) + 3, by have hN := N128; omega⟩, rfl⟩
  obtain ⟨e0, e1, e2, -⟩ := arrays_idx_facts t
  refine ⟨t, (flush0_2 t).mpr (by omega), ?_⟩
  rw [row_mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- The row blocks written back tile the first result array, so it ends at the array of row minima. -/
theorem row_array (c : Dev nD) :
    (dats m 0 c).arrAt 2 cfg0.N = (fun ix => rowMin (xarr m c) (yarr m c) (ix2 (ix 0) (ix 2)) : FVec Ideal S8x1x4096 .f32) :=
  (dats m 0 c).arrAt_eq_of_cover 2 (rowG m c) (row_flushed_eq m c) row_cover

/-- The second result array the program is to end with. -/
abbrev colG (c : Dev nD) : FVec Ideal S8x1x4096 .f32 := fun ix => colMin (xarr m c) (yarr m c) (ix2 (ix 0) (ix 2))

/-- What a point that writes the column block back writes is its block of that array: the point is a cloud's last, where
    the column block holds its 4096 points' least distances to all of the first cloud. -/
theorem col_flushed_eq (c : Dev nD) (t : Fin cfg0.N) (hf : (cfg0.win 3).flush t = true) :
    (dats m 0 c).flushed 3 t = ((cfg0.win 3).blk t).view.read (Elt Ideal) (colG m c) := by
  have ht := lt128 t
  have h15 : t.val % 16 = 15 := (flush0_3 t).mp hf
  obtain ⟨-, -, -, e0, e1, e2⟩ := arrays_idx_facts t
  show (cfg0.win 3).cut (grid0.coords t) ((dats m 0 c).after 3 t) = _
  rw [after3]
  have e : t.val = 16 * (t.val / 16) + 15 := by omega
  refine funext fun (y : S1x1x4096.Idx) => ?_
  obtain ⟨a, b', r, rfl⟩ : ∃ (a b' : Fin 1) (r : Fin 4096), y = ix3 a b' r := ⟨y 0, y 1, y 2, eq_ix3 y⟩
  obtain rfl : a = 0 := Subsingleton.elim _ _
  obtain rfl : b' = 0 := Subsingleton.elim _ _
  rw [View.read_apply]
  have hemb : (((cfg0.win 3).blk t).view.emb (ix3 0 0 r) : S8x1x4096.Idx) = ix3 ⟨t.val / 16, by omega⟩ 0 r := by
    funext a; apply Fin.ext
    match a with
    | ⟨0, _⟩ => show win0_3.index t (0 : Fin 3) * 1 + 1 * 0 = t.val / 16; omega
    | ⟨1, _⟩ => show win0_3.index t (1 : Fin 3) * 1 + 1 * 0 = 0; omega
    | ⟨2, _⟩ => show win0_3.index t (2 : Fin 3) * 4096 + 1 * r.val = r.val; omega
  show (outsAt m c t.val t.isLt).2 (ix3 0 0 r) = colG m c (((cfg0.win 3).blk t).view.emb (ix3 0 0 r))
  rw [hemb, arrays_outsAt_congr m c e t.isLt (by have hN := N128; omega)]
  exact col_final m c ⟨t.val / 16, by omega⟩ r

/-- An index of the second result array is in point `t`'s column block iff each coordinate is in the block's range on its axis. -/
theorem col_mem_blk (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every index `(b, 0, r)` of the second result array is in the column block written back after cloud `b`'s last point. -/
theorem col_cover (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  obtain ⟨t, tv⟩ : ∃ t : Fin cfg0.N, t.val = 16 * (i 0).val + 15 :=
    ⟨⟨16 * (i 0).val + 15, by have hN := N128; omega⟩, rfl⟩
  obtain ⟨-, -, -, e0, e1, e2⟩ := arrays_idx_facts t
  refine ⟨t, (flush0_3 t).mpr (by omega), ?_⟩
  rw [col_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- The column blocks written back tile the second result array, so it ends at the array of column minima. -/
theorem col_array (c : Dev nD) :
    (dats m 0 c).arrAt 3 cfg0.N = (fun ix => colMin (xarr m c) (yarr m c) (ix2 (ix 0) (ix 2)) : FVec Ideal S8x1x4096 .f32) :=
  (dats m 0 c).arrAt_eq_of_cover 3 (colG m c) (col_flushed_eq m c) col_cover

end Cert.KernelIdeal.Tile

end
-- ==== Proof.HostTail.lean ====
/-
  The host operations after the kernel: the two arrays of minima, each laid out [8, 1, 4096], are read as [8, 4096],
  and the loss is taken of them.
-/
import proofs.«132328_j377957122587_1_alg».proof.Proof.Gen.KernelIdeal.Frame
import proofs.«132328_j377957122587_1_alg».proof.Proof.Spec
import Idealize.ShloMosaic.Lib.StableHlo.Run
import Idealize.ShloMosaic.Lib.Pipeline.Value

noncomputable section

namespace Cert.KernelIdeal.HostTail

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- An `[a, 1, b]` array read as `[a, b]`: at `(i, j)` it is the operand at `(i, 0, j)`, the two row-major
    positions being `(i · 1 + 0) · b + j` and `i · b + j`. -/
theorem shapeCast_a1b_ab_apply {α : Type} {a b : ℕ} (x : (⟨3, ![a, 1, b]⟩ : Shape).Idx → α)
    (h : (⟨3, ![a, 1, b]⟩ : Shape).ShapeCasts ⟨2, ![a, b]⟩) (ix : (⟨2, ![a, b]⟩ : Shape).Idx) :
    shapeCast ⟨2, ![a, b]⟩ x h ix = x (ix3 (ix 0) (0 : Fin 1) (ix 1)) :=
  shapeCast_apply x h _ _ (by
    rw [Shape.rowMajor_val_three, Shape.rowMajor_val_two]
    show ((ix 0).val * 1 + 0) * b + (ix 1).val = (ix 0).val * b + (ix 1).val
    rw [Nat.mul_one, Nat.add_zero])

/-- After the region has left `R` in the first result array and `C` in the second, the host operations leave in the
    program's result the loss of `C` and `R` read as [8, 4096] arrays. -/
theorem tail_value (dats : (p : Fin 1) → (c : Dev nD) → Dat τ (Elt Ideal) Unit ℕ (UR sig nD τ) ℕ (cfgs p) c) (c : Dev nD)
    (R C : FVec Ideal S8x1x4096 .f32)
    (hR : (dats 0 c).arrAt 2 cfg0.N = R) (hC : (dats 0 c).arrAt 3 cfg0.N = C) :
    Pipeline.afterTail₀ cfgs dats 0 (V0 m) [hostOps1] c main_v8
      = Cert.Chamfer.loss reducesTo_S8x4096_S_d0_1 h_S_
          (fun ix => C (ix3 (ix 0) 0 (ix 1))) (fun ix => R (ix3 (ix 0) 0 (ix 1))) := by
  -- the lines' results, outermost first: the product, the sum, the two quotients, the two sums over all indices, the
  -- two reshapes, each at the contents the region left in its array
  unfold Pipeline.afterTail₀
  simp only [List.flatten_cons, List.flatten_nil, List.append_nil]
  show StableHlo.after hostOps1 _ (Proc.devRef .tc main_v8) = _
  after_results
  -- the region's two result arrays are the pipeline's arrays 2 and 3
  have h2 : Pipeline.withArrays (cfgs 0).spec c (V0 m c) (fun w => (dats 0 c).arrAt w (cfgs 0).N) (Proc.devRef .tc main_v0_0) = R :=
    (Pipeline.withArrays_arr spec0 launch0.win.arr_inj c _ _ 2).trans hR
  have h3 : Pipeline.withArrays (cfgs 0).spec c (V0 m c) (fun w => (dats 0 c).arrAt w (cfgs 0).N) (Proc.devRef .tc main_v0_1) = C :=
    (Pipeline.withArrays_arr spec0 launch0.win.arr_inj c _ _ 3).trans hC
  rw [h2, h3]
  -- each reshape is a shape cast [8, 1, 4096] → [8, 4096] (the element types agree, so the transport is the identity)
  show mulf (addf (Host.divf (Host.reduceAdd (shapeCast S8x4096 C shapeCasts_S8x1x4096_S8x4096) _ _ _) _)
      (Host.divf (Host.reduceAdd (shapeCast S8x4096 R shapeCasts_S8x1x4096_S8x4096) _ _ _) _)) _ = _
  rw [show shapeCast S8x4096 C shapeCasts_S8x1x4096_S8x4096 = fun ix => C (ix3 (ix 0) 0 (ix 1)) from
        funext fun ix => shapeCast_a1b_ab_apply C _ ix,
      show shapeCast S8x4096 R shapeCasts_S8x1x4096_S8x4096 = fun ix => R (ix3 (ix 0) 0 (ix 1)) from
        funext fun ix => shapeCast_a1b_ab_apply R _ ix]
  -- what is left is the loss's own definition, literal for literal
  rfl

end Cert.KernelIdeal.HostTail

end
-- ==== Proof.KernelValue.lean ====
/-
  The idealized kernel's run with its result named: every execution terminates, the program's result is the chamfer loss
  of the two argument arrays, and the arguments end unchanged. The two result arrays of the region end at the arrays of
  minima, and the host operations after the region take the loss of them.
-/
import proofs.«132328_j377957122587_1_alg».proof.Proof.TileArrays
import proofs.«132328_j377957122587_1_alg».proof.Proof.HostTail
import Idealize.ShloMosaic.Lib.Pipeline.Frame

set_option maxRecDepth 16384

noncomputable section

namespace Cert.KernelIdeal.Tile

open Cert.KernelIdeal Cert.KernelIdeal.Gen Cert.KernelIdeal.Payload Cert.Chamfer
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem kernel_run (ρ : Dev nD → PrngReg) :
    θ_run defs (onTc (τ := τ) (main (F := Ideal))) ⟨m, fun _ => 0, ρ⟩ (fun r => ∀ c : Dev nD,
      r.2.mem ((c.tc : Thread nD τ).loc main_v8)
          = loss reducesTo_S8x4096_S_d0_1 h_S_
              (colMin (m ((c.tc : Thread nD τ).loc main_arg0)) (m ((c.tc : Thread nD τ).loc main_arg1)))
              (rowMin (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  refine ⟨?_, ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩
  rw [(h c).2 main_v8 (Pipeline.mem_restRefs_of main_v8 rfl (by decide)),
    HostTail.tail_value m (dats m) c _ _ (row_array m c) (col_array m c)]
  congr 1

end Cert.KernelIdeal.Tile

end
-- ==== Proof.RefValue.lean ====
/-
  What the reference computes, at the extended reals, is the chamfer loss of its two argument arrays.
-/
import proofs.«132328_j377957122587_1_alg».proof.Proof.Gen.ReferenceIdeal.Read
import proofs.«132328_j377957122587_1_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx

/-- The squared norm of point `i` of the first array in cloud `b`: the first sum over the coordinate axis, from 0. -/
theorem v1_read (x0 : (⟨S8x4096x3, .f32⟩ : BufTy).Contents (Elt Ideal)) (b : Fin 8) (i : Fin 4096) :
    val_main_v1 (F := Ideal) x0 (ix2 b i) = Cert.Chamfer.sq x0 b i := by
  rw [val_main_v1_apply, val_main_cst_apply, Ideal.ofBits_def, Ideal.ofBits_zero_f32, zero_add]
  unfold Cert.Chamfer.sq
  refine Finset.sum_congr rfl fun k _ => ?_
  rw [val_main_v0_apply,
    show idx_main_v1 (ix2 b i) k = ix3 b i k from
      funext fun a => by match a with | ⟨0, _⟩ => rfl | ⟨1, _⟩ => rfl | ⟨2, _⟩ => rfl]
  rfl

/-- The squared norm of point `j` of the second array in cloud `b`. -/
theorem v3_read (x1 : (⟨S8x4096x3, .f32⟩ : BufTy).Contents (Elt Ideal)) (b : Fin 8) (j : Fin 4096) :
    val_main_v3 (F := Ideal) x1 (ix2 b j) = Cert.Chamfer.sq x1 b j := by
  rw [val_main_v3_apply, val_main_cst_0_apply, Ideal.ofBits_def, Ideal.ofBits_zero_f32, zero_add]
  unfold Cert.Chamfer.sq
  refine Finset.sum_congr rfl fun k _ => ?_
  rw [val_main_v2_apply,
    show idx_main_v3 (ix2 b j) k = ix3 b j k from
      funext fun a => by match a with | ⟨0, _⟩ => rfl | ⟨1, _⟩ => rfl | ⟨2, _⟩ => rfl]
  rfl

/-- The inner product of point `i` of the first array with point `j` of the second in cloud `b`. -/
theorem v4_read (x0 x1 : (⟨S8x4096x3, .f32⟩ : BufTy).Contents (Elt Ideal)) (b : Fin 8) (i j : Fin 4096) :
    val_main_v4 (F := Ideal) x0 x1 (ix3 b i j) = Cert.Chamfer.dot x0 x1 b i j := by
  rw [val_main_v4_apply]
  unfold Cert.Chamfer.dot
  refine Finset.sum_congr rfl fun k _ => ?_
  rw [show lidx_main_v4 (ix3 b i j) k = ix3 b i k from
      funext fun a => by match a with | ⟨0, _⟩ => rfl | ⟨1, _⟩ => rfl | ⟨2, _⟩ => rfl,
    show ridx_main_v4 (ix3 b i j) k = ix3 b j k from
      funext fun a => by match a with | ⟨0, _⟩ => rfl | ⟨1, _⟩ => rfl | ⟨2, _⟩ => rfl]

/-- The array both minima are taken of holds, at (b, i, j), the squared distance of point `i` of the first array to
    point `j` of the second: the two norms broadcast along the other point axis and added, less twice the inner product. -/
theorem v12_read (x0 x1 : (⟨S8x4096x3, .f32⟩ : BufTy).Contents (Elt Ideal)) (b : Fin 8) (i j : Fin 4096) :
    val_main_v12 (F := Ideal) x0 x1 (ix3 b i j) = Cert.Chamfer.pd x0 x1 b i j := by
  rw [val_main_v12_apply, val_main_v9_apply, val_main_v11_apply, val_main_v10_apply, val_main_cst_1_apply,
    val_main_v7_apply, val_main_v5_apply, val_main_v8_apply, val_main_v6_apply,
    show idx_main_v5 (idx_main_v7 (ix3 b i j)) = ix2 b i from
      funext fun a => by match a with | ⟨0, _⟩ => rfl | ⟨1, _⟩ => rfl,
    show idx_main_v6 (idx_main_v8 (ix3 b i j)) = ix2 b j from
      funext fun a => by match a with | ⟨0, _⟩ => rfl | ⟨1, _⟩ => rfl,
    v1_read, v3_read, v4_read]
  rfl

/-- Over the result index (b, j) of the reduction along axis 1, the source index with coordinate `k` inserted is (b, k, j). -/
theorem lift_d1 (h : S8x4096x4096.Reduces [1] S8x4096) (j : S8x4096.Idx) (k : Fin 4096) :
    h.lift j k = ix3 (j 0) k (j 1) :=
  funext fun a => Fin.ext (by match a with | ⟨0, _⟩ => rfl | ⟨1, _⟩ => rfl | ⟨2, _⟩ => rfl)

/-- Over the result index (b, i) of the reduction along axis 2, the source index with coordinate `k` inserted is (b, i, k). -/
theorem lift_d2 (h : S8x4096x4096.Reduces [2] S8x4096) (j : S8x4096.Idx) (k : Fin 4096) :
    h.lift j k = ix3 (j 0) (j 1) k :=
  funext fun a => Fin.ext (by match a with | ⟨0, _⟩ => rfl | ⟨1, _⟩ => rfl | ⟨2, _⟩ => rfl)

/-- The reference's minimum over the first cloud's points (the reduction along axis 1) is `colMin`. -/
theorem col_eq (x0 x1 : (⟨S8x4096x3, .f32⟩ : BufTy).Contents (Elt Ideal)) :
    val_main_v13 (F := Ideal) x0 x1 = Cert.Chamfer.colMin x0 x1 := by
  -- A reduction by a commutative, associative operation along one axis is, at each result index, the fold over that
  -- axis's coordinates from the initial value; `min` is such, the initial value is the float +∞, and the folded
  -- entries are the squared distances.
  funext j
  have h : S8x4096x4096.Reduces [1] S8x4096 := by decide
  unfold val_main_v13
  rw [Host.reduce_eq_fold_single _ _ _ reducesTo_S8x4096x4096_S8x4096_d1 h h_S_ j]
  unfold Cert.Chamfer.colMin
  refine Finset.fold_congr fun k _ => ?_
  rw [Function.comp_apply, lift_d1 h j k]
  exact v12_read x0 x1 (j 0) k (j 1)

/-- The reference's minimum over the second cloud's points (the reduction along axis 2) is `rowMin`. -/
theorem row_eq (x0 x1 : (⟨S8x4096x3, .f32⟩ : BufTy).Contents (Elt Ideal)) :
    val_main_v16 (F := Ideal) x0 x1 = Cert.Chamfer.rowMin x0 x1 := by
  -- As for the other axis: the fold of `min` from +∞ over the last axis's coordinates.
  funext j
  have h : S8x4096x4096.Reduces [2] S8x4096 := by decide
  unfold val_main_v16
  rw [Host.reduce_eq_fold_single _ _ _ reducesTo_S8x4096x4096_S8x4096_d2 h h_S_ j]
  unfold Cert.Chamfer.rowMin
  refine Finset.fold_congr fun k _ => ?_
  rw [Function.comp_apply, lift_d2 h j k]
  exact v12_read x0 x1 (j 0) (j 1) k

/-- The reference's result is the loss of the two arrays of minima. -/
theorem result_eq (x0 x1 : (⟨S8x4096x3, .f32⟩ : BufTy).Contents (Elt Ideal)) :
    val_main_v20 (F := Ideal) x0 x1
      = Cert.Chamfer.loss reducesTo_S8x4096_S_d0_1 h_S_ (Cert.Chamfer.colMin x0 x1) (Cert.Chamfer.rowMin x0 x1) := by
  -- The remaining stages are the two total sums, the two divisions, the addition and the scaling, applied to the two
  -- arrays of minima.
  unfold val_main_v20 val_main_v19 val_main_v18 val_main_v17 val_main_v15 val_main_v14 Cert.Chamfer.loss
  rw [col_eq, row_eq]
  rfl

end Cert.ReferenceIdeal.RefValue

end
-- ==== Proof.lean ====
/-
  The certificate. The kernel tiles the 4096 × 4096 squared distances of two point clouds into 1024 × 1024 tiles and keeps
  two running minima, one per point of each cloud, across the tiles; the reference forms all distances at once and takes
  the two minima whole. On the extended reals a minimum taken tile by tile from +∞ is the minimum, and a dot product
  accumulated term by term from 0 is the sum, so both programs compute the same loss of the same two arrays of minima.
  The word-level kernel and its idealization run and leave their arguments unchanged by the same argument about the sweep
  of tiles, stated once for any float instance; the reference's frame is its run with the result dropped; the
  idealization rewrote nothing.
-/
import proofs.«132328_j377957122587_1_alg».proof.Defs
import proofs.«132328_j377957122587_1_alg».proof.Proof.Gen.Kernel
import proofs.«132328_j377957122587_1_alg».proof.Proof.Gen.KernelIdeal
import proofs.«132328_j377957122587_1_alg».proof.Proof.Gen.ReferenceIdeal
import proofs.«132328_j377957122587_1_alg».proof.Proof.Gen.Pre_finite_inputs
import proofs.«132328_j377957122587_1_alg».proof.Proof.Gen.ReferenceIdeal.Run
import proofs.«132328_j377957122587_1_alg».proof.Proof.Gen.ReferenceIdeal.Read
import proofs.«132328_j377957122587_1_alg».proof.Proof.TileFrameBits
import proofs.«132328_j377957122587_1_alg».proof.Proof.KernelValue
import proofs.«132328_j377957122587_1_alg».proof.Proof.RefValue

noncomputable section

namespace Cert.Proof

open Idealize.ShloMosaic Idealize.ShloMosaic.TcCoe Idealize.SL.Sem

theorem frame_k : Cert.frame_Kernel := fun m ρ _ => Cert.Kernel.Tile.frame m ρ
theorem frame_ki : Cert.frame_KernelIdeal := fun m ρ _ => Cert.KernelIdeal.Tile.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the chamfer loss of the (agreeing) argument arrays. -/
theorem algebraic : Cert.algebraic_KernelIdeal_ReferenceIdeal := by
  intro m ρ m' ρ' _ hagree
  refine ⟨_, Cert.KernelIdeal.Tile.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v20_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
